-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048 : Shape := ⟨2, ![8, 2048]⟩
abbrev S20000x1024 : Shape := ⟨2, ![20000, 1024]⟩
abbrev S20000x256 : Shape := ⟨2, ![20000, 256]⟩
abbrev S160000x64 : Shape := ⟨2, ![160000, 64]⟩
abbrev S67735x16 : Shape := ⟨2, ![67735, 16]⟩
abbrev S1024x1024 : Shape := ⟨2, ![1024, 1024]⟩
abbrev S1024x256 : Shape := ⟨2, ![1024, 256]⟩
abbrev S1024x64 : Shape := ⟨2, ![1024, 64]⟩
abbrev S1024x16 : Shape := ⟨2, ![1024, 16]⟩
abbrev S_ : Shape := ⟨0, ![]⟩

class Facts : Prop where
  bcast_S_S20000x1024 : S_.BroadcastsInDim S20000x1024 (![] : Fin 0 → Fin S20000x1024.rank)
  reducesTo_S20000x1024_S_d0_1 : S20000x1024.ReducesTo [0, 1] S_
  h_S_ : 0 < S_.numel
  bcast_S_S20000x256 : S_.BroadcastsInDim S20000x256 (![] : Fin 0 → Fin S20000x256.rank)
  reducesTo_S20000x256_S_d0_1 : S20000x256.ReducesTo [0, 1] S_
  bcast_S_S160000x64 : S_.BroadcastsInDim S160000x64 (![] : Fin 0 → Fin S160000x64.rank)
  reducesTo_S160000x64_S_d0_1 : S160000x64.ReducesTo [0, 1] S_
  bcast_S_S67735x16 : S_.BroadcastsInDim S67735x16 (![] : Fin 0 → Fin S67735x16.rank)
  reducesTo_S67735x16_S_d0_1 : S67735x16.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024x256 : S_.BroadcastsInDim S1024x256 (![] : Fin 0 → Fin S1024x256.rank)
  reducesTo_S1024x256_S_d0_1 : S1024x256.ReducesTo [0, 1] S_
  bcast_S_S1024x64 : S_.BroadcastsInDim S1024x64 (![] : Fin 0 → Fin S1024x64.rank)
  reducesTo_S1024x64_S_d0_1 : S1024x64.ReducesTo [0, 1] S_
  bcast_S_S1024x16 : S_.BroadcastsInDim S1024x16 (![] : Fin 0 → Fin S1024x16.rank)
  reducesTo_S1024x16_S_d0_1 : S1024x16.ReducesTo [0, 1] S_

variable [Facts]

def fn_part2 {F : FTy → Type} [FloatOps F] (main_arg8 : FVec F S1024x16 .f32) (main_v33 : IVec S_ 1) : IVec S_ 1 :=
  let main_v34 : FVec F S1024x16 .f32 := Host.absf main_arg8
  let main_cst_12 : FVec F S_ .f32 := constant S_ .f32 0x7F800000#32
  let main_v35 : FVec F S1024x16 .f32 := broadcastInDim S1024x16 ![] bcast_S_S1024x16 main_cst_12
  let main_v36 : IVec S1024x16 1 := cmpf .olt main_v34 main_v35
  let main_c_13 : IVec S_ 1 := constantI S_ 1 1#1
  let main_v37 : IVec S_ 1 := (fun x v => Host.reduce IntOp.andi x v reducesTo_S1024x16_S_d0_1 h_S_) main_v36 main_c_13
  let main_v38 : IVec S_ 1 := andi main_v33 main_v37
  main_v38

def fn_part1 {F : FTy → Type} [FloatOps F] (main_arg5 : FVec F S1024x1024 .f32) (main_arg6 : FVec F S1024x256 .f32) (main_arg7 : FVec F S1024x64 .f32) (main_arg8 : FVec F S1024x16 .f32) (main_v13 : IVec S_ 1) (main_v16 : IVec S67735x16 1) : IVec S_ 1 :=
  let main_c_5 : IVec S_ 1 := constantI S_ 1 1#1
  let main_v17 : IVec S_ 1 := (fun x v => Host.reduce IntOp.andi x v reducesTo_S67735x16_S_d0_1 h_S_) main_v16 main_c_5
  let main_v18 : IVec S_ 1 := andi main_v13 main_v17
  let main_v19 : FVec F S1024x1024 .f32 := Host.absf main_arg5
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x256 .f32 := Host.absf main_arg6
  let main_cst_8 : FVec F S_ .f32 := constant S_ .f32 0x7F800000#32
  let main_v25 : FVec F S1024x256 .f32 := broadcastInDim S1024x256 ![] bcast_S_S1024x256 main_cst_8
  let main_v26 : IVec S1024x256 1 := cmpf .olt main_v24 main_v25
  let main_c_9 : IVec S_ 1 := constantI S_ 1 1#1
  let main_v27 : IVec S_ 1 := (fun x v => Host.reduce IntOp.andi x v reducesTo_S1024x256_S_d0_1 h_S_) main_v26 main_c_9
  let main_v28 : IVec S_ 1 := andi main_v23 main_v27
  let main_v29 : FVec F S1024x64 .f32 := Host.absf main_arg7
  let main_cst_10 : FVec F S_ .f32 := constant S_ .f32 0x7F800000#32
  let main_v30 : FVec F S1024x64 .f32 := broadcastInDim S1024x64 ![] bcast_S_S1024x64 main_cst_10
  let main_v31 : IVec S1024x64 1 := cmpf .olt main_v29 main_v30
  let main_c_11 : IVec S_ 1 := constantI S_ 1 1#1
  let main_v32 : IVec S_ 1 := (fun x v => Host.reduce IntOp.andi x v reducesTo_S1024x64_S_d0_1 h_S_) main_v31 main_c_11
  let main_v33 : IVec S_ 1 := andi main_v28 main_v32
  fn_part2 (F := F) main_arg8 main_v33

def fn {F : FTy → Type} [FloatOps F] (main_arg0 : IVec S8x2048 32) (main_arg1 : FVec F S20000x1024 .f32) (main_arg2 : FVec F S20000x256 .f32) (main_arg3 : FVec F S160000x64 .f32) (main_arg4 : FVec F S67735x16 .f32) (main_arg5 : FVec F S1024x1024 .f32) (main_arg6 : FVec F S1024x256 .f32) (main_arg7 : FVec F S1024x64 .f32) (main_arg8 : FVec F S1024x16 .f32) : IVec S_ 1 :=
  let main_v0 : FVec F S20000x1024 .f32 := Host.absf main_arg1
  let main_cst : FVec F S_ .f32 := constant S_ .f32 0x7F800000#32
  let main_v1 : FVec F S20000x1024 .f32 := broadcastInDim S20000x1024 ![] bcast_S_S20000x1024 main_cst
  let main_v2 : IVec S20000x1024 1 := cmpf .olt main_v0 main_v1
  let main_c : IVec S_ 1 := constantI S_ 1 1#1
  let main_v3 : IVec S_ 1 := (fun x v => Host.reduce IntOp.andi x v reducesTo_S20000x1024_S_d0_1 h_S_) main_v2 main_c
  let main_v4 : FVec F S20000x256 .f32 := Host.absf main_arg2
  let main_cst_0 : FVec F S_ .f32 := constant S_ .f32 0x7F800000#32
  let main_v5 : FVec F S20000x256 .f32 := broadcastInDim S20000x256 ![] bcast_S_S20000x256 main_cst_0
  let main_v6 : IVec S20000x256 1 := cmpf .olt main_v4 main_v5
  let main_c_1 : IVec S_ 1 := constantI S_ 1 1#1
  let main_v7 : IVec S_ 1 := (fun x v => Host.reduce IntOp.andi x v reducesTo_S20000x256_S_d0_1 h_S_) main_v6 main_c_1
  let main_v8 : IVec S_ 1 := andi main_v3 main_v7
  let main_v9 : FVec F S160000x64 .f32 := Host.absf main_arg3
  let main_cst_2 : FVec F S_ .f32 := constant S_ .f32 0x7F800000#32
  let main_v10 : FVec F S160000x64 .f32 := broadcastInDim S160000x64 ![] bcast_S_S160000x64 main_cst_2
  let main_v11 : IVec S160000x64 1 := cmpf .olt main_v9 main_v10
  let main_c_3 : IVec S_ 1 := constantI S_ 1 1#1
  let main_v12 : IVec S_ 1 := (fun x v => Host.reduce IntOp.andi x v reducesTo_S160000x64_S_d0_1 h_S_) main_v11 main_c_3
  let main_v13 : IVec S_ 1 := andi main_v8 main_v12
  let main_v14 : FVec F S67735x16 .f32 := Host.absf main_arg4
  let main_cst_4 : FVec F S_ .f32 := constant S_ .f32 0x7F800000#32
  let main_v15 : FVec F S67735x16 .f32 := broadcastInDim S67735x16 ![] bcast_S_S67735x16 main_cst_4
  let main_v16 : IVec S67735x16 1 := cmpf .olt main_v14 main_v15
  fn_part1 (F := F) main_arg5 main_arg6 main_arg7 main_arg8 main_v13 main_v16
-- ==== Kernel.lean ====
abbrev S8x2048 : Shape := ⟨2, ![8, 2048]⟩
abbrev S20000x1024 : Shape := ⟨2, ![20000, 1024]⟩
abbrev S20000x256 : Shape := ⟨2, ![20000, 256]⟩
abbrev S160000x64 : Shape := ⟨2, ![160000, 64]⟩
abbrev S67735x16 : Shape := ⟨2, ![67735, 16]⟩
abbrev S1024x1024 : Shape := ⟨2, ![1024, 1024]⟩
abbrev S1024x256 : Shape := ⟨2, ![1024, 256]⟩
abbrev S1024x64 : Shape := ⟨2, ![1024, 64]⟩
abbrev S1024x16 : Shape := ⟨2, ![1024, 16]⟩
abbrev S16384 : Shape := ⟨1, ![16384]⟩
abbrev S_ : Shape := ⟨0, ![]⟩
abbrev S16384x1 : Shape := ⟨2, ![16384, 1]⟩
abbrev S16384x1024 : Shape := ⟨2, ![16384, 1024]⟩
abbrev S16384x256 : Shape := ⟨2, ![16384, 256]⟩
abbrev S16384x64 : Shape := ⟨2, ![16384, 64]⟩
abbrev S16384x16 : Shape := ⟨2, ![16384, 16]⟩
abbrev S256x1024 : Shape := ⟨2, ![256, 1024]⟩
abbrev S64x1024 : Shape := ⟨2, ![64, 1024]⟩
abbrev S16x1024 : Shape := ⟨2, ![16, 1024]⟩
abbrev S8x2048x1024 : Shape := ⟨3, ![8, 2048, 1024]⟩

abbrev nBuf : Space → Nat
  | .hbm => 156
  | .vmem => 14
  | .smem => 0
  | _ => 0

abbrev hbmTy0_0 (i : Nat) : BufTy := match i % 128 with
  | 0 => ⟨S8x2048, .i32⟩
  | 1 => ⟨S20000x1024, .f32⟩
  | 2 => ⟨S20000x256, .f32⟩
  | 3 => ⟨S160000x64, .f32⟩
  | 4 => ⟨S67735x16, .f32⟩
  | 5 => ⟨S1024x1024, .f32⟩
  | 6 => ⟨S1024x256, .f32⟩
  | 7 => ⟨S1024x64, .f32⟩
  | 8 => ⟨S1024x16, .f32⟩
  | 9 => ⟨S16384, .i32⟩
  | 10 => ⟨S_, .i32⟩
  | 11 => ⟨S16384, .i32⟩
  | 12 => ⟨S16384, .i1⟩
  | 13 => ⟨S_, .i32⟩
  | 14 => ⟨S16384, .i32⟩
  | 15 => ⟨S16384, .i1⟩
  | 16 => ⟨S16384, .i1⟩
  | 17 => ⟨S_, .i32⟩
  | 18 => ⟨S16384, .i32⟩
  | 19 => ⟨S16384, .i32⟩
  | 20 => ⟨S_, .i32⟩
  | 21 => ⟨S_, .i32⟩
  | 22 => ⟨S_, .i32⟩
  | 23 => ⟨S16384, .i32⟩
  | 24 => ⟨S16384, .i32⟩
  | 25 => ⟨S_, .i32⟩
  | 26 => ⟨S16384, .i32⟩
  | 27 => ⟨S16384, .i32⟩
  | 28 => ⟨S_, .i32⟩
  | 29 => ⟨S16384, .i32⟩
  | 30 => ⟨S16384, .i1⟩
  | 31 => ⟨S_, .i32⟩
  | 32 => ⟨S16384, .i32⟩
  | 33 => ⟨S16384, .i32⟩
  | 34 => ⟨S16384, .i32⟩
  | 35 => ⟨S16384x1, .i32⟩
  | 36 => ⟨S16384x1024, .f32⟩
  | 37 => ⟨S16384x1, .i1⟩
  | 38 => ⟨S_, .f32⟩
  | 39 => ⟨S_, .f32⟩
  | 40 => ⟨S16384x1024, .i1⟩
  | 41 => ⟨S16384x1024, .f32⟩
  | 42 => ⟨S16384x1024, .f32⟩
  | 43 => ⟨S16384x1024, .bf16⟩
  | 44 => ⟨S_, .i32⟩
  | 45 => ⟨S16384, .i32⟩
  | 46 => ⟨S16384, .i1⟩
  | 47 => ⟨S_, .i32⟩
  | 48 => ⟨S16384, .i32⟩
  | 49 => ⟨S16384, .i1⟩
  | 50 => ⟨S16384, .i1⟩
  | 51 => ⟨S_, .i32⟩
  | 52 => ⟨S16384, .i32⟩
  | 53 => ⟨S16384, .i32⟩
  | 54 => ⟨S_, .i32⟩
  | 55 => ⟨S_, .i32⟩
  | 56 => ⟨S_, .i32⟩
  | 57 => ⟨S16384, .i32⟩
  | 58 => ⟨S16384, .i32⟩
  | 59 => ⟨S_, .i32⟩
  | 60 => ⟨S16384, .i32⟩
  | 61 => ⟨S16384, .i32⟩
  | 62 => ⟨S_, .i32⟩
  | 63 => ⟨S16384, .i32⟩
  | 64 => ⟨S16384, .i1⟩
  | 65 => ⟨S_, .i32⟩
  | 66 => ⟨S16384, .i32⟩
  | 67 => ⟨S16384, .i32⟩
  | 68 => ⟨S16384, .i32⟩
  | 69 => ⟨S16384x1, .i32⟩
  | 70 => ⟨S16384x256, .f32⟩
  | 71 => ⟨S16384x1, .i1⟩
  | 72 => ⟨S_, .f32⟩
  | 73 => ⟨S_, .f32⟩
  | 74 => ⟨S16384x256, .i1⟩
  | 75 => ⟨S16384x256, .f32⟩
  | 76 => ⟨S16384x256, .f32⟩
  | 77 => ⟨S16384x256, .bf16⟩
  | 78 => ⟨S_, .i32⟩
  | 79 => ⟨S16384, .i32⟩
  | 80 => ⟨S16384, .i1⟩
  | 81 => ⟨S_, .i32⟩
  | 82 => ⟨S16384, .i32⟩
  | 83 => ⟨S16384, .i1⟩
  | 84 => ⟨S16384, .i1⟩
  | 85 => ⟨S_, .i32⟩
  | 86 => ⟨S16384, .i32⟩
  | 87 => ⟨S16384, .i32⟩
  | 88 => ⟨S_, .i32⟩
  | 89 => ⟨S_, .i32⟩
  | 90 => ⟨S_, .i32⟩
  | 91 => ⟨S16384, .i32⟩
  | 92 => ⟨S16384, .i32⟩
  | 93 => ⟨S_, .i32⟩
  | 94 => ⟨S16384, .i32⟩
  | 95 => ⟨S16384, .i32⟩
  | 96 => ⟨S_, .i32⟩
  | 97 => ⟨S16384, .i32⟩
  | 98 => ⟨S16384, .i1⟩
  | 99 => ⟨S_, .i32⟩
  | 100 => ⟨S16384, .i32⟩
  | 101 => ⟨S16384, .i32⟩
  | 102 => ⟨S16384, .i32⟩
  | 103 => ⟨S16384x1, .i32⟩
  | 104 => ⟨S16384x64, .f32⟩
  | 105 => ⟨S16384x1, .i1⟩
  | 106 => ⟨S_, .f32⟩
  | 107 => ⟨S_, .f32⟩
  | 108 => ⟨S16384x64, .i1⟩
  | 109 => ⟨S16384x64, .f32⟩
  | 110 => ⟨S16384x64, .f32⟩
  | 111 => ⟨S16384x64, .bf16⟩
  | 112 => ⟨S_, .i32⟩
  | 113 => ⟨S16384, .i32⟩
  | 114 => ⟨S16384, .i1⟩
  | 115 => ⟨S_, .i32⟩
  | 116 => ⟨S16384, .i32⟩
  | 117 => ⟨S16384, .i1⟩
  | 118 => ⟨S16384, .i1⟩
  | 119 => ⟨S_, .i32⟩
  | 120 => ⟨S16384, .i32⟩
  | 121 => ⟨S16384, .i32⟩
  | 122 => ⟨S_, .i32⟩
  | 123 => ⟨S_, .i32⟩
  | 124 => ⟨S_, .i32⟩
  | 125 => ⟨S16384, .i32⟩
  | 126 => ⟨S16384, .i32⟩
  | 127 => ⟨S_, .i32⟩
  | _ => ⟨S8x2048, .i32⟩

abbrev hbmTy0_1 (i : Nat) : BufTy := match i % 128 with
  | 0 => ⟨S16384, .i32⟩
  | 1 => ⟨S16384, .i32⟩
  | 2 => ⟨S_, .i32⟩
  | 3 => ⟨S16384, .i32⟩
  | 4 => ⟨S16384, .i1⟩
  | 5 => ⟨S_, .i32⟩
  | 6 => ⟨S16384, .i32⟩
  | 7 => ⟨S16384, .i32⟩
  | 8 => ⟨S16384, .i32⟩
  | 9 => ⟨S16384x1, .i32⟩
  | 10 => ⟨S16384x16, .f32⟩
  | 11 => ⟨S16384x1, .i1⟩
  | 12 => ⟨S_, .f32⟩
  | 13 => ⟨S_, .f32⟩
  | 14 => ⟨S16384x16, .i1⟩
  | 15 => ⟨S16384x16, .f32⟩
  | 16 => ⟨S16384x16, .f32⟩
  | 17 => ⟨S16384x16, .bf16⟩
  | 18 => ⟨S1024x1024, .f32⟩
  | 19 => ⟨S1024x1024, .bf16⟩
  | 20 => ⟨S256x1024, .f32⟩
  | 21 => ⟨S256x1024, .bf16⟩
  | 22 => ⟨S64x1024, .f32⟩
  | 23 => ⟨S64x1024, .bf16⟩
  | 24 => ⟨S16x1024, .f32⟩
  | 25 => ⟨S16x1024, .bf16⟩
  | 26 => ⟨S16384x1024, .f32⟩
  | 27 => ⟨S8x2048x1024, .f32⟩
  | _ => ⟨S8x2048, .i32⟩

abbrev hbmTy (i : Nat) : BufTy := match i / 128 with
  | 0 => hbmTy0_0 i
  | 1 => hbmTy0_1 i
  | _ => ⟨S8x2048, .i32⟩

abbrev bufTy : (tb : Table) → Fin (tcTables nBuf tb) → BufTy
  | .hbm, ⟨i, _⟩ => hbmTy i
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x64, .bf16⟩
  | .local _ .vmem, ⟨5, _⟩ => ⟨S1024x64, .bf16⟩
  | .local _ .vmem, ⟨6, _⟩ => ⟨S1024x16, .bf16⟩
  | .local _ .vmem, ⟨7, _⟩ => ⟨S1024x16, .bf16⟩
  | .local _ .vmem, ⟨8, _⟩ => ⟨S1024x1024, .bf16⟩
  | .local _ .vmem, ⟨9, _⟩ => ⟨S256x1024, .bf16⟩
  | .local _ .vmem, ⟨10, _⟩ => ⟨S64x1024, .bf16⟩
  | .local _ .vmem, ⟨11, _⟩ => ⟨S16x1024, .bf16⟩
  | .local _ .vmem, ⟨12, _⟩ => ⟨S1024x1024, .f32⟩
  | .local _ .vmem, ⟨13, _⟩ => ⟨S1024x1024, .f32⟩
  | _, _ => ⟨S8x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c_1 : Ref sig .tc := ⟨.hbm, 17, rfl⟩
abbrev main_v6 : Ref sig .tc := ⟨.hbm, 18, rfl⟩
abbrev main_v7 : Ref sig .tc := ⟨.hbm, 19, rfl⟩
abbrev main_c_2 : Ref sig .tc := ⟨.hbm, 20, rfl⟩
abbrev main_c_3 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v8 : Ref sig .tc := ⟨.hbm, 27, rfl⟩
abbrev main_c_4 : Ref sig .tc := ⟨.hbm, 28, rfl⟩
abbrev main_v9 : Ref sig .tc := ⟨.hbm, 29, rfl⟩
abbrev main_v10 : Ref sig .tc := ⟨.hbm, 30, rfl⟩
abbrev main_c_5 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v17 : Ref sig .tc := ⟨.hbm, 42, rfl⟩
abbrev main_v18 : Ref sig .tc := ⟨.hbm, 43, rfl⟩
abbrev main_c_6 : Ref sig .tc := ⟨.hbm, 44, rfl⟩
abbrev main_v19 : Ref sig .tc := ⟨.hbm, 45, rfl⟩
abbrev main_v20 : Ref sig .tc := ⟨.hbm, 46, rfl⟩
abbrev main_c_7 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_c_8 : Ref sig .tc := ⟨.hbm, 51, rfl⟩
abbrev main_v24 : Ref sig .tc := ⟨.hbm, 52, rfl⟩
abbrev main_v25 : Ref sig .tc := ⟨.hbm, 53, rfl⟩
abbrev main_c_9 : Ref sig .tc := ⟨.hbm, 54, rfl⟩
abbrev main_c_10 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_v26 : Ref sig .tc := ⟨.hbm, 61, rfl⟩
abbrev main_c_11 : Ref sig .tc := ⟨.hbm, 62, rfl⟩
abbrev main_v27 : Ref sig .tc := ⟨.hbm, 63, rfl⟩
abbrev main_v28 : Ref sig .tc := ⟨.hbm, 64, rfl⟩
abbrev main_c_12 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_13 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v35 : Ref sig .tc := ⟨.hbm, 76, rfl⟩
abbrev main_v36 : Ref sig .tc := ⟨.hbm, 77, rfl⟩
abbrev main_c_14 : Ref sig .tc := ⟨.hbm, 78, rfl⟩
abbrev main_v37 : Ref sig .tc := ⟨.hbm, 79, rfl⟩
abbrev main_v38 : Ref sig .tc := ⟨.hbm, 80, rfl⟩
abbrev main_c_15 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_c_16 : Ref sig .tc := ⟨.hbm, 85, rfl⟩
abbrev main_v42 : Ref sig .tc := ⟨.hbm, 86, rfl⟩
abbrev main_v43 : Ref sig .tc := ⟨.hbm, 87, rfl⟩
abbrev main_c_17 : Ref sig .tc := ⟨.hbm, 88, rfl⟩
abbrev main_c_18 : Ref sig .tc := ⟨.hbm, 89, rfl⟩
abbrev main_call4_v0 : Ref sig .tc := ⟨.hbm, 90, rfl⟩
abbrev main_call4_v1 : Ref sig .tc := ⟨.hbm, 91, rfl⟩
abbrev main_call4_v2 : Ref sig .tc := ⟨.hbm, 92, rfl⟩
abbrev main_call4_v3 : Ref sig .tc := ⟨.hbm, 93, rfl⟩
abbrev main_call4_v4 : Ref sig .tc := ⟨.hbm, 94, rfl⟩
abbrev main_v44 : Ref sig .tc := ⟨.hbm, 95, rfl⟩
abbrev main_c_19 : Ref sig .tc := ⟨.hbm, 96, rfl⟩
abbrev main_v45 : Ref sig .tc := ⟨.hbm, 97, rfl⟩
abbrev main_v46 : Ref sig .tc := ⟨.hbm, 98, rfl⟩
abbrev main_c_20 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_cst_21 : Ref sig .tc := ⟨.hbm, 106, rfl⟩
abbrev main_call5_v0 : Ref sig .tc := ⟨.hbm, 107, rfl⟩
abbrev main_call5_v1 : Ref sig .tc := ⟨.hbm, 108, rfl⟩
abbrev main_call5_v2 : Ref sig .tc := ⟨.hbm, 109, rfl⟩
abbrev main_v53 : Ref sig .tc := ⟨.hbm, 110, rfl⟩
abbrev main_v54 : Ref sig .tc := ⟨.hbm, 111, rfl⟩
abbrev main_c_22 : Ref sig .tc := ⟨.hbm, 112, rfl⟩
abbrev main_v55 : Ref sig .tc := ⟨.hbm, 113, rfl⟩
abbrev main_v56 : Ref sig .tc := ⟨.hbm, 114, rfl⟩
abbrev main_c_23 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_c_24 : Ref sig .tc := ⟨.hbm, 119, rfl⟩
abbrev main_v60 : Ref sig .tc := ⟨.hbm, 120, rfl⟩
abbrev main_v61 : Ref sig .tc := ⟨.hbm, 121, rfl⟩
abbrev main_c_25 : Ref sig .tc := ⟨.hbm, 122, rfl⟩
abbrev main_c_26 : Ref sig .tc := ⟨.hbm, 123, rfl⟩
abbrev main_call6_v0 : Ref sig .tc := ⟨.hbm, 124, rfl⟩
abbrev main_call6_v1 : Ref sig .tc := ⟨.hbm, 125, rfl⟩
abbrev main_call6_v2 : Ref sig .tc := ⟨.hbm, 126, rfl⟩
abbrev main_call6_v3 : Ref sig .tc := ⟨.hbm, 127, rfl⟩
abbrev main_call6_v4 : Ref sig .tc := ⟨.hbm, 128, rfl⟩
abbrev main_v62 : Ref sig .tc := ⟨.hbm, 129, rfl⟩
abbrev main_c_27 : Ref sig .tc := ⟨.hbm, 130, rfl⟩
abbrev main_v63 : Ref sig .tc := ⟨.hbm, 131, rfl⟩
abbrev main_v64 : Ref sig .tc := ⟨.hbm, 132, rfl⟩
abbrev main_c_28 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_cst_29 : Ref sig .tc := ⟨.hbm, 140, rfl⟩
abbrev main_call7_v0 : Ref sig .tc := ⟨.hbm, 141, rfl⟩
abbrev main_call7_v1 : Ref sig .tc := ⟨.hbm, 142, rfl⟩
abbrev main_call7_v2 : Ref sig .tc := ⟨.hbm, 143, rfl⟩
abbrev main_v71 : Ref sig .tc := ⟨.hbm, 144, rfl⟩
abbrev main_v72 : Ref sig .tc := ⟨.hbm, 145, rfl⟩
abbrev main_v73 : Ref sig .tc := ⟨.hbm, 146, rfl⟩
abbrev main_v74 : Ref sig .tc := ⟨.hbm, 147, rfl⟩
abbrev main_v75 : Ref sig .tc := ⟨.hbm, 148, rfl⟩
abbrev main_v76 : Ref sig .tc := ⟨.hbm, 149, rfl⟩
abbrev main_v77 : Ref sig .tc := ⟨.hbm, 150, rfl⟩
abbrev main_v78 : Ref sig .tc := ⟨.hbm, 151, rfl⟩
abbrev main_v79 : Ref sig .tc := ⟨.hbm, 152, rfl⟩
abbrev main_v80 : Ref sig .tc := ⟨.hbm, 153, rfl⟩
abbrev main_v81 : Ref sig .tc := ⟨.hbm, 154, rfl⟩
abbrev main_v82 : Ref sig .tc := ⟨.hbm, 155, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x16 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S8x2048_S16384 : S8x2048.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x1024_0_1 : S16384x1.BroadcastsInDim S16384x1024 (![0, 1] : Fin 2 → Fin S16384x1024.rank)
  bcast_S_S16384x1024 : S_.BroadcastsInDim S16384x1024 (![] : Fin 0 → Fin S16384x1024.rank)
  bitsLt_bf16_f32 : FTy.bits .bf16 < FTy.bits .f32
  bcast_S16384x1_S16384x256_0_1 : S16384x1.BroadcastsInDim S16384x256 (![0, 1] : Fin 2 → Fin S16384x256.rank)
  bcast_S_S16384x256 : S_.BroadcastsInDim S16384x256 (![] : Fin 0 → Fin S16384x256.rank)
  bcast_S16384x1_S16384x64_0_1 : S16384x1.BroadcastsInDim S16384x64 (![0, 1] : Fin 2 → Fin S16384x64.rank)
  bcast_S_S16384x64 : S_.BroadcastsInDim S16384x64 (![] : Fin 0 → Fin S16384x64.rank)
  bcast_S16384x1_S16384x16_0_1 : S16384x1.BroadcastsInDim S16384x16 (![0, 1] : Fin 2 → Fin S16384x16.rank)
  bcast_S_S16384x16 : S_.BroadcastsInDim S16384x16 (![] : Fin 0 → Fin S16384x16.rank)
  transposes_S1024x1024_S1024x1024_1_0 : S1024x1024.Transposes [1, 0] S1024x1024
  transposes_S1024x256_S256x1024_1_0 : S1024x256.Transposes [1, 0] S256x1024
  transposes_S1024x64_S64x1024_1_0 : S1024x64.Transposes [1, 0] S64x1024
  transposes_S1024x16_S16x1024_1_0 : S1024x16.Transposes [1, 0] S16x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  shapeCasts_S16384x1024_S8x2048x1024 : S16384x1024.ShapeCasts S8x2048x1024
  gather_S20000x1024_S16384x1_S16384x1024_1_0_n_n_0_1_11024_wf : GatherDims.WF S20000x1024 S16384x1 S16384x1024 [1] [0] [] [0] [] 1 ![1, 1024]
  gather_S20000x256_S16384x1_S16384x256_1_0_n_n_0_1_1256_wf : GatherDims.WF S20000x256 S16384x1 S16384x256 [1] [0] [] [0] [] 1 ![1, 256]
  gather_S160000x64_S16384x1_S16384x64_1_0_n_n_0_1_164_wf : GatherDims.WF S160000x64 S16384x1 S16384x64 [1] [0] [] [0] [] 1 ![1, 64]
  gather_S67735x16_S16384x1_S16384x16_1_0_n_n_0_1_116_wf : GatherDims.WF S67735x16 S16384x1 S16384x16 [1] [0] [] [0] [] 1 ![1, 16]
  dot_S1024x1024_S1024x1024_S1024x1024_1_0_0_1_n_n_wf : DotDims.WF S1024x1024 S1024x1024 S1024x1024 [1] [0] [0] [1] [] []
  dot_S1024x256_S256x1024_S1024x1024_1_0_0_1_n_n_wf : DotDims.WF S1024x256 S256x1024 S1024x1024 [1] [0] [0] [1] [] []
  dot_S1024x64_S64x1024_S1024x1024_1_0_0_1_n_n_wf : DotDims.WF S1024x64 S64x1024 S1024x1024 [1] [0] [0] [1] [] []
  dot_S1024x16_S16x1024_S1024x1024_1_0_0_1_n_n_wf : DotDims.WF S1024x16 S16x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .bf16 = 32 ∨ (Rect.block (s := S16384x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S16384x256.size a
  hwx0_1 : ∀ i : grid0.Coords, EltTy.bits .bf16 = 32 ∨ (Rect.block (s := S16384x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S16384x64.size a
  hwx0_2 : ∀ i : grid0.Coords, EltTy.bits .bf16 = 32 ∨ (Rect.block (s := S16384x64) S1024x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x16.size a ≤ S16384x16.size a
  hwx0_3 : ∀ i : grid0.Coords, EltTy.bits .bf16 = 32 ∨ (Rect.block (s := S16384x16) S1024x16.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S256x1024.size a
  hwx0_5 : ∀ i : grid0.Coords, EltTy.bits .bf16 = 32 ∨ (Rect.block (s := S256x1024) S256x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x1024.size a ≤ S64x1024.size a
  hwx0_6 : ∀ i : grid0.Coords, EltTy.bits .bf16 = 32 ∨ (Rect.block (s := S64x1024) S64x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x1024.size a ≤ S16x1024.size a
  hwx0_7 : ∀ i : grid0.Coords, EltTy.bits .bf16 = 32 ∨ (Rect.block (s := S16x1024) S16x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S16384x1024.size a
  hwx0_8 : ∀ i : grid0.Coords, EltTy.bits .f32 = 32 ∨ (Rect.block (s := S16384x1024) S1024x1024.size (cc0_transform_8 i) (hinb0_8 i)).WholeWords (EltTy.packing .f32)

variable [Facts₀]

def gather_S20000x1024_S16384x1_S16384x1024_1_0_n_n_0_1_11024 : GatherDims S20000x1024 S16384x1 S16384x1024 where
  offsetDims := [1]
  collapsedSliceDims := [0]
  operandBatchingDims := []
  startIndicesBatchingDims := []
  startIndexMap := [0]
  indexVectorDim := 1
  sliceSizes := ![1, 1024]
  wf := gather_S20000x1024_S16384x1_S16384x1024_1_0_n_n_0_1_11024_wf
def gather_S20000x256_S16384x1_S16384x256_1_0_n_n_0_1_1256 : GatherDims S20000x256 S16384x1 S16384x256 where
  offsetDims := [1]
  collapsedSliceDims := [0]
  operandBatchingDims := []
  startIndicesBatchingDims := []
  startIndexMap := [0]
  indexVectorDim := 1
  sliceSizes := ![1, 256]
  wf := gather_S20000x256_S16384x1_S16384x256_1_0_n_n_0_1_1256_wf
def gather_S160000x64_S16384x1_S16384x64_1_0_n_n_0_1_164 : GatherDims S160000x64 S16384x1 S16384x64 where
  offsetDims := [1]
  collapsedSliceDims := [0]
  operandBatchingDims := []
  startIndicesBatchingDims := []
  startIndexMap := [0]
  indexVectorDim := 1
  sliceSizes := ![1, 64]
  wf := gather_S160000x64_S16384x1_S16384x64_1_0_n_n_0_1_164_wf
def gather_S67735x16_S16384x1_S16384x16_1_0_n_n_0_1_116 : GatherDims S67735x16 S16384x1 S16384x16 where
  offsetDims := [1]
  collapsedSliceDims := [0]
  operandBatchingDims := []
  startIndicesBatchingDims := []
  startIndexMap := [0]
  indexVectorDim := 1
  sliceSizes := ![1, 16]
  wf := gather_S67735x16_S16384x1_S16384x16_1_0_n_n_0_1_116_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf

abbrev win0_0 : Pipeline.Window sig grid0 :=
  Pipeline.Window.ofSpec (Memref.whole main_v18) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v54) S1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v72) S1024x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v74) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v76) S256x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v78) S64x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v80) S16x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v81) S1024x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8x2048 : Shape := ⟨2, ![8, 2048]⟩
abbrev S20000x1024 : Shape := ⟨2, ![20000, 1024]⟩
abbrev S20000x256 : Shape := ⟨2, ![20000, 256]⟩
abbrev S160000x64 : Shape := ⟨2, ![160000, 64]⟩
abbrev S67735x16 : Shape := ⟨2, ![67735, 16]⟩
abbrev S1024x1024 : Shape := ⟨2, ![1024, 1024]⟩
abbrev S1024x256 : Shape := ⟨2, ![1024, 256]⟩
abbrev S1024x64 : Shape := ⟨2, ![1024, 64]⟩
abbrev S1024x16 : Shape := ⟨2, ![1024, 16]⟩
abbrev S_ : Shape := ⟨0, ![]⟩
abbrev S8x2048x1024 : Shape := ⟨3, ![8, 2048, 1024]⟩
abbrev S8x2048x1 : Shape := ⟨3, ![8, 2048, 1]⟩
abbrev S8x2048x256 : Shape := ⟨3, ![8, 2048, 256]⟩
abbrev S8x2048x64 : Shape := ⟨3, ![8, 2048, 64]⟩
abbrev S8x2048x16 : Shape := ⟨3, ![8, 2048, 16]⟩

abbrev nBuf : Space → Nat
  | .hbm => 154
  | .vmem => 0
  | .smem => 0
  | _ => 0

abbrev hbmTy0_0 (i : Nat) : BufTy := match i % 128 with
  | 0 => ⟨S8x2048, .i32⟩
  | 1 => ⟨S20000x1024, .f32⟩
  | 2 => ⟨S20000x256, .f32⟩
  | 3 => ⟨S160000x64, .f32⟩
  | 4 => ⟨S67735x16, .f32⟩
  | 5 => ⟨S1024x1024, .f32⟩
  | 6 => ⟨S1024x256, .f32⟩
  | 7 => ⟨S1024x64, .f32⟩
  | 8 => ⟨S1024x16, .f32⟩
  | 9 => ⟨S_, .f32⟩
  | 10 => ⟨S8x2048x1024, .f32⟩
  | 11 => ⟨S_, .i32⟩
  | 12 => ⟨S8x2048, .i32⟩
  | 13 => ⟨S8x2048, .i1⟩
  | 14 => ⟨S_, .i32⟩
  | 15 => ⟨S8x2048, .i32⟩
  | 16 => ⟨S8x2048, .i1⟩
  | 17 => ⟨S8x2048, .i1⟩
  | 18 => ⟨S_, .i32⟩
  | 19 => ⟨S8x2048, .i32⟩
  | 20 => ⟨S8x2048, .i32⟩
  | 21 => ⟨S_, .i32⟩
  | 22 => ⟨S_, .i32⟩
  | 23 => ⟨S_, .i32⟩
  | 24 => ⟨S8x2048, .i32⟩
  | 25 => ⟨S8x2048, .i32⟩
  | 26 => ⟨S_, .i32⟩
  | 27 => ⟨S8x2048, .i32⟩
  | 28 => ⟨S8x2048, .i32⟩
  | 29 => ⟨S_, .i32⟩
  | 30 => ⟨S8x2048, .i32⟩
  | 31 => ⟨S8x2048, .i1⟩
  | 32 => ⟨S_, .i32⟩
  | 33 => ⟨S8x2048, .i32⟩
  | 34 => ⟨S8x2048, .i32⟩
  | 35 => ⟨S8x2048, .i32⟩
  | 36 => ⟨S8x2048x1, .i32⟩
  | 37 => ⟨S8x2048x1024, .f32⟩
  | 38 => ⟨S8x2048x1024, .f32⟩
  | 39 => ⟨S8x2048x1, .i1⟩
  | 40 => ⟨S_, .f32⟩
  | 41 => ⟨S_, .f32⟩
  | 42 => ⟨S8x2048x1024, .i1⟩
  | 43 => ⟨S8x2048x1024, .f32⟩
  | 44 => ⟨S8x2048x1024, .f32⟩
  | 45 => ⟨S8x2048x1024, .f32⟩
  | 46 => ⟨S_, .i32⟩
  | 47 => ⟨S8x2048, .i32⟩
  | 48 => ⟨S8x2048, .i1⟩
  | 49 => ⟨S_, .i32⟩
  | 50 => ⟨S8x2048, .i32⟩
  | 51 => ⟨S8x2048, .i1⟩
  | 52 => ⟨S8x2048, .i1⟩
  | 53 => ⟨S_, .i32⟩
  | 54 => ⟨S8x2048, .i32⟩
  | 55 => ⟨S8x2048, .i32⟩
  | 56 => ⟨S_, .i32⟩
  | 57 => ⟨S_, .i32⟩
  | 58 => ⟨S_, .i32⟩
  | 59 => ⟨S8x2048, .i32⟩
  | 60 => ⟨S8x2048, .i32⟩
  | 61 => ⟨S_, .i32⟩
  | 62 => ⟨S8x2048, .i32⟩
  | 63 => ⟨S8x2048, .i32⟩
  | 64 => ⟨S_, .i32⟩
  | 65 => ⟨S8x2048, .i32⟩
  | 66 => ⟨S8x2048, .i1⟩
  | 67 => ⟨S_, .i32⟩
  | 68 => ⟨S8x2048, .i32⟩
  | 69 => ⟨S8x2048, .i32⟩
  | 70 => ⟨S8x2048, .i32⟩
  | 71 => ⟨S8x2048x1, .i32⟩
  | 72 => ⟨S8x2048x256, .f32⟩
  | 73 => ⟨S8x2048x1024, .f32⟩
  | 74 => ⟨S8x2048x1, .i1⟩
  | 75 => ⟨S_, .f32⟩
  | 76 => ⟨S_, .f32⟩
  | 77 => ⟨S8x2048x1024, .i1⟩
  | 78 => ⟨S8x2048x1024, .f32⟩
  | 79 => ⟨S8x2048x1024, .f32⟩
  | 80 => ⟨S8x2048x1024, .f32⟩
  | 81 => ⟨S_, .i32⟩
  | 82 => ⟨S8x2048, .i32⟩
  | 83 => ⟨S8x2048, .i1⟩
  | 84 => ⟨S_, .i32⟩
  | 85 => ⟨S8x2048, .i32⟩
  | 86 => ⟨S8x2048, .i1⟩
  | 87 => ⟨S8x2048, .i1⟩
  | 88 => ⟨S_, .i32⟩
  | 89 => ⟨S8x2048, .i32⟩
  | 90 => ⟨S8x2048, .i32⟩
  | 91 => ⟨S_, .i32⟩
  | 92 => ⟨S_, .i32⟩
  | 93 => ⟨S_, .i32⟩
  | 94 => ⟨S8x2048, .i32⟩
  | 95 => ⟨S8x2048, .i32⟩
  | 96 => ⟨S_, .i32⟩
  | 97 => ⟨S8x2048, .i32⟩
  | 98 => ⟨S8x2048, .i32⟩
  | 99 => ⟨S_, .i32⟩
  | 100 => ⟨S8x2048, .i32⟩
  | 101 => ⟨S8x2048, .i1⟩
  | 102 => ⟨S_, .i32⟩
  | 103 => ⟨S8x2048, .i32⟩
  | 104 => ⟨S8x2048, .i32⟩
  | 105 => ⟨S8x2048, .i32⟩
  | 106 => ⟨S8x2048x1, .i32⟩
  | 107 => ⟨S8x2048x64, .f32⟩
  | 108 => ⟨S8x2048x1024, .f32⟩
  | 109 => ⟨S8x2048x1, .i1⟩
  | 110 => ⟨S_, .f32⟩
  | 111 => ⟨S_, .f32⟩
  | 112 => ⟨S8x2048x1024, .i1⟩
  | 113 => ⟨S8x2048x1024, .f32⟩
  | 114 => ⟨S8x2048x1024, .f32⟩
  | 115 => ⟨S8x2048x1024, .f32⟩
  | 116 => ⟨S_, .i32⟩
  | 117 => ⟨S8x2048, .i32⟩
  | 118 => ⟨S8x2048, .i1⟩
  | 119 => ⟨S_, .i32⟩
  | 120 => ⟨S8x2048, .i32⟩
  | 121 => ⟨S8x2048, .i1⟩
  | 122 => ⟨S8x2048, .i1⟩
  | 123 => ⟨S_, .i32⟩
  | 124 => ⟨S8x2048, .i32⟩
  | 125 => ⟨S8x2048, .i32⟩
  | 126 => ⟨S_, .i32⟩
  | 127 => ⟨S_, .i32⟩
  | _ => ⟨S8x2048, .i32⟩

abbrev hbmTy0_1 (i : Nat) : BufTy := match i % 128 with
  | 0 => ⟨S_, .i32⟩
  | 1 => ⟨S8x2048, .i32⟩
  | 2 => ⟨S8x2048, .i32⟩
  | 3 => ⟨S_, .i32⟩
  | 4 => ⟨S8x2048, .i32⟩
  | 5 => ⟨S8x2048, .i32⟩
  | 6 => ⟨S_, .i32⟩
  | 7 => ⟨S8x2048, .i32⟩
  | 8 => ⟨S8x2048, .i1⟩
  | 9 => ⟨S_, .i32⟩
  | 10 => ⟨S8x2048, .i32⟩
  | 11 => ⟨S8x2048, .i32⟩
  | 12 => ⟨S8x2048, .i32⟩
  | 13 => ⟨S8x2048x1, .i32⟩
  | 14 => ⟨S8x2048x16, .f32⟩
  | 15 => ⟨S8x2048x1024, .f32⟩
  | 16 => ⟨S8x2048x1, .i1⟩
  | 17 => ⟨S_, .f32⟩
  | 18 => ⟨S_, .f32⟩
  | 19 => ⟨S8x2048x1024, .i1⟩
  | 20 => ⟨S8x2048x1024, .f32⟩
  | 21 => ⟨S8x2048x1024, .f32⟩
  | 22 => ⟨S8x2048x1024, .f32⟩
  | 23 => ⟨S_, .f32⟩
  | 24 => ⟨S8x2048x1024, .f32⟩
  | 25 => ⟨S8x2048x1024, .f32⟩
  | _ => ⟨S8x2048, .i32⟩

abbrev hbmTy (i : Nat) : BufTy := match i / 128 with
  | 0 => hbmTy0_0 i
  | 1 => hbmTy0_1 i
  | _ => ⟨S8x2048, .i32⟩

abbrev bufTy : (tb : Table) → Fin (tcTables nBuf tb) → BufTy
  | .hbm, ⟨i, _⟩ => hbmTy i
  | _, _ => ⟨S8x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c_1 : Ref sig .tc := ⟨.hbm, 18, rfl⟩
abbrev main_v6 : Ref sig .tc := ⟨.hbm, 19, rfl⟩
abbrev main_v7 : Ref sig .tc := ⟨.hbm, 20, rfl⟩
abbrev main_c_2 : Ref sig .tc := ⟨.hbm, 21, rfl⟩
abbrev main_c_3 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v8 : Ref sig .tc := ⟨.hbm, 28, rfl⟩
abbrev main_c_4 : Ref sig .tc := ⟨.hbm, 29, rfl⟩
abbrev main_v9 : Ref sig .tc := ⟨.hbm, 30, rfl⟩
abbrev main_v10 : Ref sig .tc := ⟨.hbm, 31, rfl⟩
abbrev main_c_5 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_6 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v18 : Ref sig .tc := ⟨.hbm, 44, rfl⟩
abbrev main_v19 : Ref sig .tc := ⟨.hbm, 45, rfl⟩
abbrev main_c_7 : Ref sig .tc := ⟨.hbm, 46, rfl⟩
abbrev main_v20 : Ref sig .tc := ⟨.hbm, 47, rfl⟩
abbrev main_v21 : Ref sig .tc := ⟨.hbm, 48, rfl⟩
abbrev main_c_8 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_c_9 : Ref sig .tc := ⟨.hbm, 53, rfl⟩
abbrev main_v25 : Ref sig .tc := ⟨.hbm, 54, rfl⟩
abbrev main_v26 : Ref sig .tc := ⟨.hbm, 55, rfl⟩
abbrev main_c_10 : Ref sig .tc := ⟨.hbm, 56, rfl⟩
abbrev main_c_11 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_v27 : Ref sig .tc := ⟨.hbm, 63, rfl⟩
abbrev main_c_12 : Ref sig .tc := ⟨.hbm, 64, rfl⟩
abbrev main_v28 : Ref sig .tc := ⟨.hbm, 65, rfl⟩
abbrev main_v29 : Ref sig .tc := ⟨.hbm, 66, rfl⟩
abbrev main_c_13 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_cst_14 : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_v37 : Ref sig .tc := ⟨.hbm, 79, rfl⟩
abbrev main_v38 : Ref sig .tc := ⟨.hbm, 80, rfl⟩
abbrev main_c_15 : Ref sig .tc := ⟨.hbm, 81, rfl⟩
abbrev main_v39 : Ref sig .tc := ⟨.hbm, 82, rfl⟩
abbrev main_v40 : Ref sig .tc := ⟨.hbm, 83, rfl⟩
abbrev main_c_16 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_c_17 : Ref sig .tc := ⟨.hbm, 88, rfl⟩
abbrev main_v44 : Ref sig .tc := ⟨.hbm, 89, rfl⟩
abbrev main_v45 : Ref sig .tc := ⟨.hbm, 90, rfl⟩
abbrev main_c_18 : Ref sig .tc := ⟨.hbm, 91, rfl⟩
abbrev main_c_19 : Ref sig .tc := ⟨.hbm, 92, rfl⟩
abbrev main_call4_v0 : Ref sig .tc := ⟨.hbm, 93, rfl⟩
abbrev main_call4_v1 : Ref sig .tc := ⟨.hbm, 94, rfl⟩
abbrev main_call4_v2 : Ref sig .tc := ⟨.hbm, 95, rfl⟩
abbrev main_call4_v3 : Ref sig .tc := ⟨.hbm, 96, rfl⟩
abbrev main_call4_v4 : Ref sig .tc := ⟨.hbm, 97, rfl⟩
abbrev main_v46 : Ref sig .tc := ⟨.hbm, 98, rfl⟩
abbrev main_c_20 : Ref sig .tc := ⟨.hbm, 99, rfl⟩
abbrev main_v47 : Ref sig .tc := ⟨.hbm, 100, rfl⟩
abbrev main_v48 : Ref sig .tc := ⟨.hbm, 101, rfl⟩
abbrev main_c_21 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_cst_22 : Ref sig .tc := ⟨.hbm, 110, rfl⟩
abbrev main_call5_v0 : Ref sig .tc := ⟨.hbm, 111, rfl⟩
abbrev main_call5_v1 : Ref sig .tc := ⟨.hbm, 112, rfl⟩
abbrev main_call5_v2 : Ref sig .tc := ⟨.hbm, 113, rfl⟩
abbrev main_v56 : Ref sig .tc := ⟨.hbm, 114, rfl⟩
abbrev main_v57 : Ref sig .tc := ⟨.hbm, 115, rfl⟩
abbrev main_c_23 : Ref sig .tc := ⟨.hbm, 116, rfl⟩
abbrev main_v58 : Ref sig .tc := ⟨.hbm, 117, rfl⟩
abbrev main_v59 : Ref sig .tc := ⟨.hbm, 118, rfl⟩
abbrev main_c_24 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_c_25 : Ref sig .tc := ⟨.hbm, 123, rfl⟩
abbrev main_v63 : Ref sig .tc := ⟨.hbm, 124, rfl⟩
abbrev main_v64 : Ref sig .tc := ⟨.hbm, 125, rfl⟩
abbrev main_c_26 : Ref sig .tc := ⟨.hbm, 126, rfl⟩
abbrev main_c_27 : Ref sig .tc := ⟨.hbm, 127, rfl⟩
abbrev main_call6_v0 : Ref sig .tc := ⟨.hbm, 128, rfl⟩
abbrev main_call6_v1 : Ref sig .tc := ⟨.hbm, 129, rfl⟩
abbrev main_call6_v2 : Ref sig .tc := ⟨.hbm, 130, rfl⟩
abbrev main_call6_v3 : Ref sig .tc := ⟨.hbm, 131, rfl⟩
abbrev main_call6_v4 : Ref sig .tc := ⟨.hbm, 132, rfl⟩
abbrev main_v65 : Ref sig .tc := ⟨.hbm, 133, rfl⟩
abbrev main_c_28 : Ref sig .tc := ⟨.hbm, 134, rfl⟩
abbrev main_v66 : Ref sig .tc := ⟨.hbm, 135, rfl⟩
abbrev main_v67 : Ref sig .tc := ⟨.hbm, 136, rfl⟩
abbrev main_c_29 : Ref sig .tc := ⟨.hbm, 137, rfl⟩
abbrev main_v68 : Ref sig .tc := ⟨.hbm, 138, rfl⟩
abbrev main_v69 : Ref sig .tc := ⟨.hbm, 139, rfl⟩
abbrev main_v70 : Ref sig .tc := ⟨.hbm, 140, rfl⟩
abbrev main_v71 : Ref sig .tc := ⟨.hbm, 141, rfl⟩
abbrev main_v72 : Ref sig .tc := ⟨.hbm, 142, rfl⟩
abbrev main_v73 : Ref sig .tc := ⟨.hbm, 143, rfl⟩
abbrev main_v74 : Ref sig .tc := ⟨.hbm, 144, rfl⟩
abbrev main_cst_30 : Ref sig .tc := ⟨.hbm, 145, rfl⟩
abbrev main_call7_v0 : Ref sig .tc := ⟨.hbm, 146, rfl⟩
abbrev main_call7_v1 : Ref sig .tc := ⟨.hbm, 147, rfl⟩
abbrev main_call7_v2 : Ref sig .tc := ⟨.hbm, 148, rfl⟩
abbrev main_v75 : Ref sig .tc := ⟨.hbm, 149, rfl⟩
abbrev main_v76 : Ref sig .tc := ⟨.hbm, 150, rfl⟩
abbrev main_cst_31 : Ref sig .tc := ⟨.hbm, 151, rfl⟩
abbrev main_v77 : Ref sig .tc := ⟨.hbm, 152, rfl⟩
abbrev main_v78 : Ref sig .tc := ⟨.hbm, 153, rfl⟩

abbrev nD : Nat := 1
abbrev τ : Topo := Topo.v7x

variable {F : FTy → Type} [FloatOps F]

class Facts₀ : Prop where
  bcast_S_S8x2048x1024 : S_.BroadcastsInDim S8x2048x1024 (![] : Fin 0 → Fin S8x2048x1024.rank)
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x1024_0_1_2 : S8x2048x1.BroadcastsInDim S8x2048x1024 (![0, 1, 2] : Fin 3 → Fin S8x2048x1024.rank)
  gather_S20000x1024_S8x2048x1_S8x2048x1024_2_0_n_n_0_2_11024_wf : GatherDims.WF S20000x1024 S8x2048x1 S8x2048x1024 [2] [0] [] [0] [] 2 ![1, 1024]
  dot_S8x2048x1024_S1024x1024_S8x2048x1024_2_1_01_0_n_n_wf : DotDims.WF S8x2048x1024 S1024x1024 S8x2048x1024 [2] [1] [0, 1] [0] [] []
  gather_S20000x256_S8x2048x1_S8x2048x256_2_0_n_n_0_2_1256_wf : GatherDims.WF S20000x256 S8x2048x1 S8x2048x256 [2] [0] [] [0] [] 2 ![1, 256]
  dot_S8x2048x256_S1024x256_S8x2048x1024_2_1_01_0_n_n_wf : DotDims.WF S8x2048x256 S1024x256 S8x2048x1024 [2] [1] [0, 1] [0] [] []
  gather_S160000x64_S8x2048x1_S8x2048x64_2_0_n_n_0_2_164_wf : GatherDims.WF S160000x64 S8x2048x1 S8x2048x64 [2] [0] [] [0] [] 2 ![1, 64]
  dot_S8x2048x64_S1024x64_S8x2048x1024_2_1_01_0_n_n_wf : DotDims.WF S8x2048x64 S1024x64 S8x2048x1024 [2] [1] [0, 1] [0] [] []
  gather_S67735x16_S8x2048x1_S8x2048x16_2_0_n_n_0_2_116_wf : GatherDims.WF S67735x16 S8x2048x1 S8x2048x16 [2] [0] [] [0] [] 2 ![1, 16]
  dot_S8x2048x16_S1024x16_S8x2048x1024_2_1_01_0_n_n_wf : DotDims.WF S8x2048x16 S1024x16 S8x2048x1024 [2] [1] [0, 1] [0] [] []

variable [Facts₀]

def gather_S20000x1024_S8x2048x1_S8x2048x1024_2_0_n_n_0_2_11024 : GatherDims S20000x1024 S8x2048x1 S8x2048x1024 where
  offsetDims := [2]
  collapsedSliceDims := [0]
  operandBatchingDims := []
  startIndicesBatchingDims := []
  startIndexMap := [0]
  indexVectorDim := 2
  sliceSizes := ![1, 1024]
  wf := gather_S20000x1024_S8x2048x1_S8x2048x1024_2_0_n_n_0_2_11024_wf
def dot_S8x2048x1024_S1024x1024_S8x2048x1024_2_1_01_0_n_n : DotDims S8x2048x1024 S1024x1024 S8x2048x1024 where
  lhsContracting := [2]
  rhsContracting := [1]
  lhsNonContracting := [0, 1]
  rhsNonContracting := [0]
  lhsBatch := []
  rhsBatch := []
  wf := dot_S8x2048x1024_S1024x1024_S8x2048x1024_2_1_01_0_n_n_wf
def gather_S20000x256_S8x2048x1_S8x2048x256_2_0_n_n_0_2_1256 : GatherDims S20000x256 S8x2048x1 S8x2048x256 where
  offsetDims := [2]
  collapsedSliceDims := [0]
  operandBatchingDims := []
  startIndicesBatchingDims := []
  startIndexMap := [0]
  indexVectorDim := 2
  sliceSizes := ![1, 256]
  wf := gather_S20000x256_S8x2048x1_S8x2048x256_2_0_n_n_0_2_1256_wf
def dot_S8x2048x256_S1024x256_S8x2048x1024_2_1_01_0_n_n : DotDims S8x2048x256 S1024x256 S8x2048x1024 where
  lhsContracting := [2]
  rhsContracting := [1]
  lhsNonContracting := [0, 1]
  rhsNonContracting := [0]
  lhsBatch := []
  rhsBatch := []
  wf := dot_S8x2048x256_S1024x256_S8x2048x1024_2_1_01_0_n_n_wf
def gather_S160000x64_S8x2048x1_S8x2048x64_2_0_n_n_0_2_164 : GatherDims S160000x64 S8x2048x1 S8x2048x64 where
  offsetDims := [2]
  collapsedSliceDims := [0]
  operandBatchingDims := []
  startIndicesBatchingDims := []
  startIndexMap := [0]
  indexVectorDim := 2
  sliceSizes := ![1, 64]
  wf := gather_S160000x64_S8x2048x1_S8x2048x64_2_0_n_n_0_2_164_wf
def dot_S8x2048x64_S1024x64_S8x2048x1024_2_1_01_0_n_n : DotDims S8x2048x64 S1024x64 S8x2048x1024 where
  lhsContracting := [2]
  rhsContracting := [1]
  lhsNonContracting := [0, 1]
  rhsNonContracting := [0]
  lhsBatch := []
  rhsBatch := []
  wf := dot_S8x2048x64_S1024x64_S8x2048x1024_2_1_01_0_n_n_wf
def gather_S67735x16_S8x2048x1_S8x2048x16_2_0_n_n_0_2_116 : GatherDims S67735x16 S8x2048x1 S8x2048x16 where
  offsetDims := [2]
  collapsedSliceDims := [0]
  operandBatchingDims := []
  startIndicesBatchingDims := []
  startIndexMap := [0]
  indexVectorDim := 2
  sliceSizes := ![1, 16]
  wf := gather_S67735x16_S8x2048x1_S8x2048x16_2_0_n_n_0_2_116_wf
def dot_S8x2048x16_S1024x16_S8x2048x1024_2_1_01_0_n_n : DotDims S8x2048x16 S1024x16 S8x2048x1024 where
  lhsContracting := [2]
  rhsContracting := [1]
  lhsNonContracting := [0, 1]
  rhsNonContracting := [0]
  lhsBatch := []
  rhsBatch := []
  wf := dot_S8x2048x16_S1024x16_S8x2048x1024_2_1_01_0_n_n_wf

class Facts : Prop extends Facts₀ where

variable [Facts]
-- ==== Proof.BandedLookup.lean ====
/-
  An embedding looked up in four vocabulary bands and projected to a common width.

  A token's id word `w` belongs to band `[lo, hi)` (signed compares) when `inBand lo hi w = 1`. Its offset into the
  band's table is `w - lo` clipped into `[0, cl]`; the gather is handed that offset, moved up by the table's row
  count were it negative (`startWord`), and reads the row `min (start, signed, negatives to 0) (N - 1)` (`rowOf`).
  One band contributes, to output column `d` of the token, the inner product of that table row with row `d` of the
  band's projection if the token is in the band and zero otherwise. The mask may be applied to the table row before
  the inner product or to the inner product itself: the sum of `0 * p` over the columns is `0` on the extended reals
  (`0 * x = 0` for every extended real `x`, the infinities included), so the two arrangements agree with no
  finiteness assumed (`bandTermMaskedRow_eq`). The result is the sum of the four bands' terms times the literal scale.
-/
import Idealize.ShloMosaic.PureOps.Ideal
import Idealize.ShloMosaic.PureOps.Ideal.Laws
import Idealize.ShloMosaic.Lib.ValueIdx

noncomputable section

namespace Cert.Banded

open Idealize.ShloMosaic Idealize.ShloMosaic.ValueIdx

/-- The bit "the id word `w` lies in `[lo, hi)`", both compares signed. -/
def inBand (lo hi w : BitVec 32) : BitVec 1 := IntOp.andi (IntOp.cmpi .sge w lo) (IntOp.cmpi .slt w hi)

/-- `w - lo` clipped into `[0, cl]`, signed: the larger of it and `0`, then the smaller of that and `cl`. -/
def offsetClipped (lo cl w : BitVec 32) : BitVec 32 := IntOp.minsi cl (IntOp.maxsi 0#32 (IntOp.subi w lo))

/-- The start index the gather receives: the clipped offset, with the row count `nn` added were it negative. -/
def startWord (lo cl nn w : BitVec 32) : BitVec 32 :=
  Scalar.select (IntOp.cmpi .slt (offsetClipped lo cl w) 0#32) (IntOp.addi (offsetClipped lo cl w) nn) (offsetClipped lo cl w)

/-- The row of an `N`-row table that a start word reads: the word as a signed integer, a negative value taken to
    `0`, capped at `N - 1`. -/
def rowOf {N : Nat} (hN : 0 < N) (sw : BitVec 32) : Fin N := ⟨min sw.toInt.toNat (N - 1), by omega⟩

section Band

variable {N K D : Nat} (hN : 0 < N) (lo hi cl nn : BitVec 32)
  (tab : (⟨2, ![N, K]⟩ : Shape).Idx → EReal) (proj : (⟨2, ![D, K]⟩ : Shape).Idx → EReal)

/-- One band's term with the mask applied to the table row: the sum over the columns `k` of
    (the row's entry if the token is in the band, else `0`) times `proj[d, k]`. -/
def bandTermMaskedRow (w : BitVec 32) (d : Fin D) : EReal :=
  ∑ k : Fin K, Scalar.select (inBand lo hi w) (tab (ix2 (rowOf hN (startWord lo cl nn w)) k)) 0 * proj (ix2 d k)

/-- One band's term with the mask applied to the inner product: the row's inner product with `proj[d, ·]` if the
    token is in the band, else `0`. -/
def bandTerm (w : BitVec 32) (d : Fin D) : EReal :=
  Scalar.select (inBand lo hi w) (∑ k : Fin K, tab (ix2 (rowOf hN (startWord lo cl nn w)) k) * proj (ix2 d k)) 0

/-- The two arrangements agree: out of the band every summand is `0 * proj[d, k] = 0`. -/
theorem bandTermMaskedRow_eq (w : BitVec 32) (d : Fin D) :
    bandTermMaskedRow hN lo hi cl nn tab proj w d = bandTerm hN lo hi cl nn tab proj w d := by
  unfold bandTermMaskedRow bandTerm Scalar.select
  by_cases h : inBand lo hi w = 1
  · simp only [if_pos h]
  · simp only [if_neg h, zero_mul, Finset.sum_const_zero]

end Band

/-- The literal scale both programs multiply by (the word of 32.0). -/
abbrev scale : EReal := Ideal.ofBits .f32 0x42000000#32

section Result

variable (ids : (⟨2, ![8, 2048]⟩ : Shape).Idx → BitVec 32)
  (e0 : (⟨2, ![20000, 1024]⟩ : Shape).Idx → EReal) (e1 : (⟨2, ![20000, 256]⟩ : Shape).Idx → EReal)
  (e2 : (⟨2, ![160000, 64]⟩ : Shape).Idx → EReal) (e3 : (⟨2, ![67735, 16]⟩ : Shape).Idx → EReal)
  (p0 : (⟨2, ![1024, 1024]⟩ : Shape).Idx → EReal) (p1 : (⟨2, ![1024, 256]⟩ : Shape).Idx → EReal)
  (p2 : (⟨2, ![1024, 64]⟩ : Shape).Idx → EReal) (p3 : (⟨2, ![1024, 16]⟩ : Shape).Idx → EReal)

/-- The result at token `(b, s)`, column `d`: the four bands' terms, summed left to right, times the scale. -/
def embedAt (b : Fin 8) (s : Fin 2048) (d : Fin 1024) : EReal :=
  (((bandTerm (N := 20000) (by decide) 0#32 20000#32 19999#32 20000#32 e0 p0 (ids (ix2 b s)) d
      + bandTerm (N := 20000) (by decide) 20000#32 40000#32 19999#32 20000#32 e1 p1 (ids (ix2 b s)) d)
      + bandTerm (N := 160000) (by decide) 40000#32 200000#32 159999#32 160000#32 e2 p2 (ids (ix2 b s)) d)
      + bandTerm (N := 67735) (by decide) 200000#32 267735#32 67734#32 67735#32 e3 p3 (ids (ix2 b s)) d) * scale

/-- The same with every band's mask applied to its table row. -/
def embedAtMaskedRows (b : Fin 8) (s : Fin 2048) (d : Fin 1024) : EReal :=
  (((bandTermMaskedRow (N := 20000) (by decide) 0#32 20000#32 19999#32 20000#32 e0 p0 (ids (ix2 b s)) d
      + bandTermMaskedRow (N := 20000) (by decide) 20000#32 40000#32 19999#32 20000#32 e1 p1 (ids (ix2 b s)) d)
      + bandTermMaskedRow (N := 160000) (by decide) 40000#32 200000#32 159999#32 160000#32 e2 p2 (ids (ix2 b s)) d)
      + bandTermMaskedRow (N := 67735) (by decide) 200000#32 267735#32 67734#32 67735#32 e3 p3 (ids (ix2 b s)) d) * scale

theorem embedAtMaskedRows_eq (b : Fin 8) (s : Fin 2048) (d : Fin 1024) :
    embedAtMaskedRows ids e0 e1 e2 e3 p0 p1 p2 p3 b s d = embedAt ids e0 e1 e2 e3 p0 p1 p2 p3 b s d := by
  unfold embedAtMaskedRows embedAt
  simp only [bandTermMaskedRow_eq]

/-- The result array: `embedAt` at an index's three coordinates. -/
def embedOut : (⟨3, ![8, 2048, 1024]⟩ : Shape).Idx → EReal := fun i =>
  embedAt ids e0 e1 e2 e3 p0 p1 p2 p3 (i 0) (i 1) (i 2)

end Result

end Cert.Banded

end
-- ==== Proof.LibRowGather3.lean ====
/-
  A row gather by a rank-3 array of start indices, read at an entry (a general lemma: nothing here depends on a
  program).

  For an operand [N, D] and an array of start indices [B, L, 1] with the dimension numbers "offset axis 2, collapsed
  operand axis 0, start index map [0], index vector axis 2, slices 1 x D", the result [B, L, D] at (b, l, k) is the
  operand's row r at column k, where r is the start index at (b, l, 0) read as a signed integer, a negative value
  taken to 0, capped at N - 1.  Any sizes N, D, B, L and any index width.
-/
import Idealize.ShloMosaic.Lib.ValueIdx
import Idealize.ShloMosaic.Lib.Pipeline.Value
import Idealize.ShloMosaic.PureOps.Ideal

noncomputable section

namespace Cert.Lib.RowGather3

open Idealize.ShloMosaic Idealize.ShloMosaic.ValueIdx

variable {α : Type}

/-- The dimension numbers of the row gather: operand `[N, D]`, start indices `[B, L, 1]`, result `[B, L, D]`. A
    record with these fields is this one by `rfl`. -/
abbrev rowDims (N D B L : Nat)
    (wf : GatherDims.WF ⟨2, ![N, D]⟩ ⟨3, ![B, L, 1]⟩ ⟨3, ![B, L, D]⟩ [2] [0] [] [0] [] 2 ![1, D]) :
    GatherDims ⟨2, ![N, D]⟩ ⟨3, ![B, L, 1]⟩ ⟨3, ![B, L, D]⟩ where
  offsetDims := [2]
  collapsedSliceDims := [0]
  operandBatchingDims := []
  startIndicesBatchingDims := []
  startIndexMap := [0]
  indexVectorDim := 2
  sliceSizes := ![1, D]
  wf := wf

/-- The operand's row coordinate read by result index `(b, l, k)`: the start index at `(b, l, 0)`, signed, capped
    into `[0, N - 1]`. -/
theorem rowDims_coord0 {N D B L w : Nat}
    (wf : GatherDims.WF ⟨2, ![N, D]⟩ ⟨3, ![B, L, 1]⟩ ⟨3, ![B, L, D]⟩ [2] [0] [] [0] [] 2 ![1, D])
    (idx : IVec ⟨3, ![B, L, 1]⟩ w) (b : Fin B) (l : Fin L) (k : Fin D) :
    (rowDims N D B L wf).start (ix3 b l k) idx 0 + (rowDims N D B L wf).batchCoord (ix3 b l k) 0
      + (rowDims N D B L wf).offCoord (ix3 b l k) 0 = min (idx (ix3 b l 0)).toInt.toNat (N - 1) := by
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (0 : Fin 2) ∈ (rowDims N D B L wf).startIndexMap from List.mem_singleton.mpr rfl)]
  have hsi : (rowDims N D B L wf).siIdx (ix3 b l k) ⟨List.idxOf (0 : Fin 2) (rowDims N D B L wf).startIndexMap,
      List.idxOf_lt_length_iff.2 (List.mem_singleton.mpr rfl)⟩ = ix3 b l 0 := by
    funext c; refine Fin.ext ?_
    match c with
    | ⟨0, _⟩ => rfl
    | ⟨1, _⟩ => rfl
    | ⟨2, _⟩ => rfl
  rw [hsi]
  rfl

/-- The operand's column coordinate read by result index `(b, l, k)`: the offset `k`. -/
theorem rowDims_coord1 {N D B L w : Nat}
    (wf : GatherDims.WF ⟨2, ![N, D]⟩ ⟨3, ![B, L, 1]⟩ ⟨3, ![B, L, D]⟩ [2] [0] [] [0] [] 2 ![1, D])
    (idx : IVec ⟨3, ![B, L, 1]⟩ w) (b : Fin B) (l : Fin L) (k : Fin D) :
    (rowDims N D B L wf).start (ix3 b l k) idx 1 + (rowDims N D B L wf).batchCoord (ix3 b l k) 1
      + (rowDims N D B L wf).offCoord (ix3 b l k) 1 = k.val := by
  rw [GatherDims.batchCoord_eq_zero _ _ _ List.not_mem_nil, Nat.add_zero]
  unfold GatherDims.start
  rw [dif_neg (show ¬ (1 : Fin 2) ∈ (rowDims N D B L wf).startIndexMap from
    (by decide : ¬ (1 : Fin 2) ∈ ([0] : List (Fin 2)))), Nat.zero_add]
  unfold GatherDims.offCoord
  rw [dif_pos (show (1 : Fin 2) ∈ (rowDims N D B L wf).sKept from (GatherDims.mem_sKept _ _).mpr
    ⟨(by decide : ¬ (1 : Fin 2) ∈ ([0] : List (Fin 2))), List.not_mem_nil⟩)]
  rfl

/-- THE ROW GATHER READ AT `(b, l, k)`: the operand at row `min (idx[b, l, 0] signed) (N - 1)`, column `k`. -/
theorem gather_rows_apply {N D B L w : Nat} (hN : 0 < N)
    (wf : GatherDims.WF ⟨2, ![N, D]⟩ ⟨3, ![B, L, 1]⟩ ⟨3, ![B, L, D]⟩ [2] [0] [] [0] [] 2 ![1, D])
    (x : (⟨2, ![N, D]⟩ : Shape).Idx → α) (idx : IVec ⟨3, ![B, L, 1]⟩ w)
    (b : Fin B) (l : Fin L) (k : Fin D) :
    Host.gather (rowDims N D B L wf) x idx (ix3 b l k)
      = x (ix2 (⟨min (idx (ix3 b l 0)).toInt.toNat (N - 1), by omega⟩ : Fin N) k) := by
  unfold Host.gather
  congr 1
  funext a
  refine Fin.ext ?_
  match a with
  | ⟨0, _⟩ => exact rowDims_coord0 wf idx b l k
  | ⟨1, _⟩ => exact rowDims_coord1 wf idx b l k

end Cert.Lib.RowGather3

end
-- ==== Proof.LibDotRows3.lean ====
/-
  A stack of rows times a transposed weight, read at an entry (a general lemma: nothing here depends on a program).

  For the dimension numbers "contract the left operand's axis 2 with the right operand's axis 1, the left operand's
  axes 0 and 1 and the right operand's axis 0 kept, no batch axis" over operands [B, L, K] and [N, K], the host's
  dot_general at entry (b, l, n), at the ideal values, is the sum over k < K of lhs[b, l, k] · rhs[n, k]. This is
  what jnp.einsum 'blf,df->bld' lowers to. Any sizes.
-/
import Idealize.ShloMosaic.Lib.ValueIdx
import Idealize.ShloMosaic.PureOps.Ideal.Laws

noncomputable section

open scoped BigOperators

namespace Cert.Lib.DotRows3

open Idealize.ShloMosaic Idealize.ShloMosaic.ValueIdx

variable {B L K N : Nat}

/-- The dimension numbers, over any sizes, from their well-formedness (a printed record
    dot_S…_2_1_01_0_n_n is this one by rfl). -/
def dims (B L K N : Nat)
    (wf : DotDims.WF ⟨3, ![B, L, K]⟩ ⟨2, ![N, K]⟩ ⟨3, ![B, L, N]⟩ [2] [1] [0, 1] [0] [] []) :
    DotDims ⟨3, ![B, L, K]⟩ ⟨2, ![N, K]⟩ ⟨3, ![B, L, N]⟩ where
  lhsContracting := [2]
  rhsContracting := [1]
  lhsNonContracting := [0, 1]
  rhsNonContracting := [0]
  lhsBatch := []
  rhsBatch := []
  wf := wf

variable (wf : DotDims.WF ⟨3, ![B, L, K]⟩ ⟨2, ![N, K]⟩ ⟨3, ![B, L, N]⟩ [2] [1] [0, 1] [0] [] [])

/-- The left operand's index keeps the result's first coordinate … -/
theorem lhs0 (j : (⟨3, ![B, L, N]⟩ : Shape).Idx) (q : (dims B L K N wf).contr.Idx) :
    ((dims B L K N wf).lhsIdx j q 0).val = (j 0).val := by
  unfold DotDims.lhsIdx
  rw [dif_neg (show ¬(0 : Fin 3) ∈ (dims B L K N wf).lhsBatch from List.not_mem_nil),
    dif_pos (show (0 : Fin 3) ∈ (dims B L K N wf).lhsNonContracting from List.mem_cons_self)]
  rfl

/-- … and its second. -/
theorem lhs1 (j : (⟨3, ![B, L, N]⟩ : Shape).Idx) (q : (dims B L K N wf).contr.Idx) :
    ((dims B L K N wf).lhsIdx j q 1).val = (j 1).val := by
  unfold DotDims.lhsIdx
  rw [dif_neg (show ¬(1 : Fin 3) ∈ (dims B L K N wf).lhsBatch from List.not_mem_nil),
    dif_pos (show (1 : Fin 3) ∈ (dims B L K N wf).lhsNonContracting from
      List.mem_cons_of_mem _ List.mem_cons_self)]
  rfl

/-- The left operand's last coordinate is the contraction coordinate. -/
theorem lhs2 (j : (⟨3, ![B, L, N]⟩ : Shape).Idx) (q : (dims B L K N wf).contr.Idx) :
    ((dims B L K N wf).lhsIdx j q 2).val = (q ⟨0, Nat.one_pos⟩).val :=
  (dims B L K N wf).lhsIdx_val_of_single rfl j q

/-- The right operand's row is the result's last coordinate. -/
theorem rhs0 (j : (⟨3, ![B, L, N]⟩ : Shape).Idx) (q : (dims B L K N wf).contr.Idx) :
    ((dims B L K N wf).rhsIdx j q 0).val = (j 2).val := by
  unfold DotDims.rhsIdx
  rw [dif_neg (show ¬(0 : Fin 2) ∈ (dims B L K N wf).rhsBatch from List.not_mem_nil),
    dif_pos (show (0 : Fin 2) ∈ (dims B L K N wf).rhsNonContracting from List.mem_singleton.mpr rfl)]
  rfl

/-- The right operand's column is the contraction coordinate. -/
theorem rhs1 (j : (⟨3, ![B, L, N]⟩ : Shape).Idx) (q : (dims B L K N wf).contr.Idx) :
    ((dims B L K N wf).rhsIdx j q 1).val = (q ⟨0, Nat.one_pos⟩).val :=
  (dims B L K N wf).rhsIdx_val_of_single rfl j q

/-- The contraction at entry (b, l, n) is the sum over the K products lhs[b, l, k] · rhs[n, k]. -/
theorem contr_sum (lhs : (⟨3, ![B, L, K]⟩ : Shape).Idx → EReal) (rhs : (⟨2, ![N, K]⟩ : Shape).Idx → EReal)
    (b : Fin B) (l : Fin L) (n : Fin N) :
    ∑ q : (dims B L K N wf).contr.Idx,
        lhs ((dims B L K N wf).lhsIdx (ix3 b l n) q) * rhs ((dims B L K N wf).rhsIdx (ix3 b l n) q)
      = ∑ k : Fin K, lhs (ix3 b l k) * rhs (ix2 n k) := by
  rw [← Equiv.sum_comp (contrEquiv1 (dims B L K N wf) K rfl rfl).symm]
  refine Finset.sum_congr rfl fun k _ => ?_
  have hk := contrEquiv1_symm_val (dims B L K N wf) K rfl rfl k
  have el : (dims B L K N wf).lhsIdx (ix3 b l n) ((contrEquiv1 (dims B L K N wf) K rfl rfl).symm k)
      = ix3 b l k := funext fun x => Fin.ext (by
    match x with
    | ⟨0, _⟩ => exact lhs0 wf _ _
    | ⟨1, _⟩ => exact lhs1 wf _ _
    | ⟨2, _⟩ => exact (lhs2 wf _ _).trans hk)
  have er : (dims B L K N wf).rhsIdx (ix3 b l n) ((contrEquiv1 (dims B L K N wf) K rfl rfl).symm k)
      = ix2 n k := funext fun x => Fin.ext (by
    match x with
    | ⟨0, _⟩ => exact rhs0 wf _ _
    | ⟨1, _⟩ => exact (rhs1 wf _ _).trans hk)
  rw [el, er]

/-- The host's dot_general, at entry (b, l, n). -/
theorem dotGeneral_apply {φ₁ φ₂ : FTy} (prec : Option ContractPrecision) (sched : HostSchedule)
    (lhs : FVec Ideal ⟨3, ![B, L, K]⟩ φ₁) (rhs : FVec Ideal ⟨2, ![N, K]⟩ φ₂) (b : Fin B) (l : Fin L) (n : Fin N) :
    FloatOps.dotGeneral (dims B L K N wf) prec sched lhs rhs (ix3 b l n)
      = ∑ k : Fin K, (lhs (ix3 b l k) : EReal) * (rhs (ix2 n k) : EReal) := by
  rw [Ideal.dotGeneral_apply]
  exact contr_sum wf lhs rhs b l n

end Cert.Lib.DotRows3

end
-- ==== Proof.LibMaskedProduct.lean ====
/-
  A band's masked product over a [B, L] grid of tokens, read at an entry (a general lemma: nothing here depends on a
  program).

  An array [B, L] becomes [B, L, 1] by broadcast_in_dim with dims [0, 1], and [B, L, 1] is spread over [B, L, D] by
  broadcast_in_dim with dims [0, 1, 2]; read at an entry, the first is the array at (b, l) and the second the operand
  at (b, l, 0). For a table [N, K], a weight [D, K], a bit array [B, L] and an array of start indices [B, L], the
  select of (the spread bits, the product of the row gather of the table with the weight contracted over K, any third
  array) at entry (b, l, d) is therefore: the sum over k of table[r, k] * weight[d, k], with r the row min(start[b, l]
  read signed with negatives at 0, N - 1), if bit (b, l) is set, else the third array's entry. Ideal values; any
  sizes B, L, N, K, D.
-/
import proofs.«172120_j19877108646485_1_alg».proof.Proof.LibRowGather3
import proofs.«172120_j19877108646485_1_alg».proof.Proof.LibDotRows3
import Idealize.ShloMosaic.Lib.ValueIdx
import Idealize.ShloMosaic.Lib.Pipeline.Value
import Idealize.ShloMosaic.PureOps.Ideal.Laws

noncomputable section

namespace Cert.Lib.MaskedProduct

open Idealize.ShloMosaic Idealize.ShloMosaic.ValueIdx

variable {B L D : Nat} {α : Type}

/-- An array [B, L] broadcast to [B, L, 1] (dims [0, 1]), read at (b, l, z): the array at (b, l). -/
theorem col3_apply (h : (⟨2, ![B, L]⟩ : Shape).BroadcastsInDim ⟨3, ![B, L, 1]⟩ (![0, 1] : Fin 2 → Fin 3))
    (v : (⟨2, ![B, L]⟩ : Shape).Idx → α) (b : Fin B) (l : Fin L) (z : Fin 1) :
    broadcastInDim ⟨3, ![B, L, 1]⟩ (![0, 1] : Fin 2 → Fin 3) h v (ix3 b l z) = v (ix2 b l) := by
  refine broadcastInDim_apply _ h v _ _ fun a => ?_
  match a with
  | ⟨0, _⟩ =>
    show b.val = if B = 1 then 0 else b.val
    split_ifs with hB
    · have := b.isLt; omega
    · rfl
  | ⟨1, _⟩ =>
    show l.val = if L = 1 then 0 else l.val
    split_ifs with hL
    · have := l.isLt; omega
    · rfl

/-- An array [B, L, 1] spread over [B, L, D] (dims [0, 1, 2]), read at (b, l, d): the operand at (b, l, 0). -/
theorem spread3_apply (h : (⟨3, ![B, L, 1]⟩ : Shape).BroadcastsInDim ⟨3, ![B, L, D]⟩ (![0, 1, 2] : Fin 3 → Fin 3))
    (u : (⟨3, ![B, L, 1]⟩ : Shape).Idx → α) (b : Fin B) (l : Fin L) (d : Fin D) :
    broadcastInDim ⟨3, ![B, L, D]⟩ (![0, 1, 2] : Fin 3 → Fin 3) h u (ix3 b l d) = u (ix3 b l 0) := by
  refine broadcastInDim_apply _ h u _ _ fun a => ?_
  match a with
  | ⟨0, _⟩ =>
    show b.val = if B = 1 then 0 else b.val
    split_ifs with hB
    · have := b.isLt; omega
    · rfl
  | ⟨1, _⟩ =>
    show l.val = if L = 1 then 0 else l.val
    split_ifs with hL
    · have := l.isLt; omega
    · rfl
  | ⟨2, _⟩ =>
    show (0 : Nat) = if (1 : Nat) = 1 then 0 else d.val
    rw [if_pos rfl]

/-- THE MASKED PRODUCT AT AN ENTRY: bit (b, l) set → the picked table row's inner product with weight row d; else the
    third array. -/
theorem maskedProduct_apply {N K : Nat} (hN : 0 < N)
    (wfg : GatherDims.WF ⟨2, ![N, K]⟩ ⟨3, ![B, L, 1]⟩ ⟨3, ![B, L, K]⟩ [2] [0] [] [0] [] 2 ![1, K])
    (wfd : DotDims.WF ⟨3, ![B, L, K]⟩ ⟨2, ![D, K]⟩ ⟨3, ![B, L, D]⟩ [2] [1] [0, 1] [0] [] [])
    (hcol : (⟨2, ![B, L]⟩ : Shape).BroadcastsInDim ⟨3, ![B, L, 1]⟩ (![0, 1] : Fin 2 → Fin 3))
    (hspread : (⟨3, ![B, L, 1]⟩ : Shape).BroadcastsInDim ⟨3, ![B, L, D]⟩ (![0, 1, 2] : Fin 3 → Fin 3))
    (mask : IVec ⟨2, ![B, L]⟩ 1) (start : IVec ⟨2, ![B, L]⟩ 32)
    (tab : FVec Ideal ⟨2, ![N, K]⟩ .f32) (weight : FVec Ideal ⟨2, ![D, K]⟩ .f32)
    (other : FVec Ideal ⟨3, ![B, L, D]⟩ .f32) (b : Fin B) (l : Fin L) (d : Fin D) :
    select (broadcastInDim ⟨3, ![B, L, D]⟩ (![0, 1, 2] : Fin 3 → Fin 3) hspread (broadcastInDim ⟨3, ![B, L, 1]⟩ (![0, 1] : Fin 2 → Fin 3) hcol mask))
        (Host.dotGeneral (F := Ideal) (Cert.Lib.DotRows3.dims B L K D wfd) none
          (Host.gather (Cert.Lib.RowGather3.rowDims N K B L wfg) tab (broadcastInDim ⟨3, ![B, L, 1]⟩ (![0, 1] : Fin 2 → Fin 3) hcol start)) weight)
        other (ix3 b l d)
      = Scalar.select (mask (ix2 b l))
          (∑ k : Fin K, (tab (ix2 (⟨min (start (ix2 b l)).toInt.toNat (N - 1), by omega⟩ : Fin N) k) : EReal) * (weight (ix2 d k) : EReal))
          (other (ix3 b l d)) := by
  rw [select_apply, spread3_apply, col3_apply]
  show Scalar.select _ (FloatOps.dotGeneral (Cert.Lib.DotRows3.dims B L K D wfd) none .single _ _ (ix3 b l d)) _ = _
  rw [Cert.Lib.DotRows3.dotGeneral_apply]
  have hs : broadcastInDim ⟨3, ![B, L, 1]⟩ (![0, 1] : Fin 2 → Fin 3) hcol start (ix3 b l 0) = start (ix2 b l) := col3_apply hcol start b l 0
  simp only [Cert.Lib.RowGather3.gather_rows_apply hN, hs]

end Cert.Lib.MaskedProduct

end
-- ==== Proof.ReferenceValue.lean ====
/-
  What the reference computes, entry by entry.

  For each band the reference gathers the token's table row, takes its inner products with the rows of the band's
  projection, and only then replaces the result by zero where the token is outside the band. Entry (b, s, d) of that
  masked product is the band's term `Banded.bandTerm` at token (b, s)'s id word and column d: the mask bit and the
  start index are word-by-word integer operations on the id array, so at (b, s) they are the scalar functions of the id
  word; the gather reads the row that start index names; the product is the sum over the table's columns. The result
  is zero plus the four bands' terms, in order, times the scale: `Banded.embedAt`.
-/
import proofs.«172120_j19877108646485_1_alg».proof.Proof.ReferenceRead
import proofs.«172120_j19877108646485_1_alg».proof.Proof.BandedLookup
import proofs.«172120_j19877108646485_1_alg».proof.Proof.LibMaskedProduct
import Idealize.ShloMosaic.Lib.ValueIdx
import Idealize.ShloMosaic.PureOps.Ideal.Laws

noncomputable section

namespace Cert.ReferenceIdeal.BandValue

open Cert.ReferenceIdeal Cert.ReferenceIdeal.Gen Cert.ReferenceIdeal.ReadP Idealize.ShloMosaic Idealize.ShloMosaic.ValueIdx

variable (x0 : (⟨S8x2048, .i32⟩ : BufTy).Contents (Elt Ideal))
  (x1 : (⟨S20000x1024, .f32⟩ : BufTy).Contents (Elt Ideal)) (x2 : (⟨S20000x256, .f32⟩ : BufTy).Contents (Elt Ideal))
  (x3 : (⟨S160000x64, .f32⟩ : BufTy).Contents (Elt Ideal)) (x4 : (⟨S67735x16, .f32⟩ : BufTy).Contents (Elt Ideal))
  (x5 : (⟨S1024x1024, .f32⟩ : BufTy).Contents (Elt Ideal)) (x6 : (⟨S1024x256, .f32⟩ : BufTy).Contents (Elt Ideal))
  (x7 : (⟨S1024x64, .f32⟩ : BufTy).Contents (Elt Ideal)) (x8 : (⟨S1024x16, .f32⟩ : BufTy).Contents (Elt Ideal))

/-- Band 0's masked product at (b, s, d). -/
theorem band0_apply (b : Fin 8) (s : Fin 2048) (d : Fin 1024) :
    val_main_v18 (F := Ideal) x0 x1 x5 (ix3 b s d)
      = Cert.Banded.bandTerm (N := 20000) (K := 1024) (D := 1024) (by decide) 0#32 20000#32 19999#32 20000#32 x1 x5 (x0 (ix2 b s)) d := by
  refine Eq.trans ?_ ((Cert.Lib.MaskedProduct.maskedProduct_apply (B := 8) (L := 2048) (D := 1024) (N := 20000) (K := 1024) (by decide)
    gather_S20000x1024_S8x2048x1_S8x2048x1024_2_0_n_n_0_2_11024.wf dot_S8x2048x1024_S1024x1024_S8x2048x1024_2_1_01_0_n_n.wf
    bcast_S8x2048_S8x2048x1_0_1 bcast_S8x2048x1_S8x2048x1024_0_1_2 (val_main_v5 (F := Ideal) x0) (val_main_v13 (F := Ideal) x0) x1 x5
    (val_main_call1_v2 (F := Ideal)) b s d).trans ?_)
  · rfl
  · show Scalar.select (Cert.Banded.inBand 0#32 20000#32 (x0 (ix2 b s)))
        (∑ k : Fin 1024, x1 (ix2 (Cert.Banded.rowOf (N := 20000) (by decide) (Cert.Banded.startWord 0#32 19999#32 20000#32 (x0 (ix2 b s)))) k) * x5 (ix2 d k))
        (Ideal.ofBits .f32 0x00000000#32) = _
    rw [Ideal.ofBits_zero_f32]
    rfl

/-- Band 1's masked product at (b, s, d). -/
theorem band1_apply (b : Fin 8) (s : Fin 2048) (d : Fin 1024) :
    val_main_v37 (F := Ideal) x0 x2 x6 (ix3 b s d)
      = Cert.Banded.bandTerm (N := 20000) (K := 256) (D := 1024) (by decide) 20000#32 40000#32 19999#32 20000#32 x2 x6 (x0 (ix2 b s)) d := by
  refine Eq.trans ?_ ((Cert.Lib.MaskedProduct.maskedProduct_apply (B := 8) (L := 2048) (D := 1024) (N := 20000) (K := 256) (by decide)
    gather_S20000x256_S8x2048x1_S8x2048x256_2_0_n_n_0_2_1256.wf dot_S8x2048x256_S1024x256_S8x2048x1024_2_1_01_0_n_n.wf
    bcast_S8x2048_S8x2048x1_0_1 bcast_S8x2048x1_S8x2048x1024_0_1_2 (val_main_v24 (F := Ideal) x0) (val_main_v32 (F := Ideal) x0) x2 x6
    (val_main_call3_v2 (F := Ideal)) b s d).trans ?_)
  · rfl
  · show Scalar.select (Cert.Banded.inBand 20000#32 40000#32 (x0 (ix2 b s)))
        (∑ k : Fin 256, x2 (ix2 (Cert.Banded.rowOf (N := 20000) (by decide) (Cert.Banded.startWord 20000#32 19999#32 20000#32 (x0 (ix2 b s)))) k) * x6 (ix2 d k))
        (Ideal.ofBits .f32 0x00000000#32) = _
    rw [Ideal.ofBits_zero_f32]
    rfl

/-- Band 2's masked product at (b, s, d). -/
theorem band2_apply (b : Fin 8) (s : Fin 2048) (d : Fin 1024) :
    val_main_v56 (F := Ideal) x0 x3 x7 (ix3 b s d)
      = Cert.Banded.bandTerm (N := 160000) (K := 64) (D := 1024) (by decide) 40000#32 200000#32 159999#32 160000#32 x3 x7 (x0 (ix2 b s)) d := by
  refine Eq.trans ?_ ((Cert.Lib.MaskedProduct.maskedProduct_apply (B := 8) (L := 2048) (D := 1024) (N := 160000) (K := 64) (by decide)
    gather_S160000x64_S8x2048x1_S8x2048x64_2_0_n_n_0_2_164.wf dot_S8x2048x64_S1024x64_S8x2048x1024_2_1_01_0_n_n.wf
    bcast_S8x2048_S8x2048x1_0_1 bcast_S8x2048x1_S8x2048x1024_0_1_2 (val_main_v43 (F := Ideal) x0) (val_main_v51 (F := Ideal) x0) x3 x7
    (val_main_call5_v2 (F := Ideal)) b s d).trans ?_)
  · rfl
  · show Scalar.select (Cert.Banded.inBand 40000#32 200000#32 (x0 (ix2 b s)))
        (∑ k : Fin 64, x3 (ix2 (Cert.Banded.rowOf (N := 160000) (by decide) (Cert.Banded.startWord 40000#32 159999#32 160000#32 (x0 (ix2 b s)))) k) * x7 (ix2 d k))
        (Ideal.ofBits .f32 0x00000000#32) = _
    rw [Ideal.ofBits_zero_f32]
    rfl

/-- Band 3's masked product at (b, s, d). -/
theorem band3_apply (b : Fin 8) (s : Fin 2048) (d : Fin 1024) :
    val_main_v75 (F := Ideal) x0 x4 x8 (ix3 b s d)
      = Cert.Banded.bandTerm (N := 67735) (K := 16) (D := 1024) (by decide) 200000#32 267735#32 67734#32 67735#32 x4 x8 (x0 (ix2 b s)) d := by
  refine Eq.trans ?_ ((Cert.Lib.MaskedProduct.maskedProduct_apply (B := 8) (L := 2048) (D := 1024) (N := 67735) (K := 16) (by decide)
    gather_S67735x16_S8x2048x1_S8x2048x16_2_0_n_n_0_2_116.wf dot_S8x2048x16_S1024x16_S8x2048x1024_2_1_01_0_n_n.wf
    bcast_S8x2048_S8x2048x1_0_1 bcast_S8x2048x1_S8x2048x1024_0_1_2 (val_main_v62 (F := Ideal) x0) (val_main_v70 (F := Ideal) x0) x4 x8
    (val_main_call7_v2 (F := Ideal)) b s d).trans ?_)
  · rfl
  · show Scalar.select (Cert.Banded.inBand 200000#32 267735#32 (x0 (ix2 b s)))
        (∑ k : Fin 16, x4 (ix2 (Cert.Banded.rowOf (N := 67735) (by decide) (Cert.Banded.startWord 200000#32 67734#32 67735#32 (x0 (ix2 b s)))) k) * x8 (ix2 d k))
        (Ideal.ofBits .f32 0x00000000#32) = _
    rw [Ideal.ofBits_zero_f32]
    rfl

/-- THE REFERENCE'S RESULT AT (b, s, d): zero plus the four bands' terms, times the scale. -/
theorem result_apply (b : Fin 8) (s : Fin 2048) (d : Fin 1024) :
    val_main_v78 (F := Ideal) x0 x1 x2 x3 x4 x5 x6 x7 x8 (ix3 b s d) = Cert.Banded.embedAt x0 x1 x2 x3 x4 x5 x6 x7 x8 b s d := by
  show ((((val_main_v0 (F := Ideal) (ix3 b s d) + val_main_v18 (F := Ideal) x0 x1 x5 (ix3 b s d))
      + val_main_v37 (F := Ideal) x0 x2 x6 (ix3 b s d)) + val_main_v56 (F := Ideal) x0 x3 x7 (ix3 b s d))
      + val_main_v75 (F := Ideal) x0 x4 x8 (ix3 b s d)) * val_main_v77 (F := Ideal) (ix3 b s d) = _
  rw [band0_apply, band1_apply, band2_apply, band3_apply]
  show ((((Ideal.ofBits .f32 0x00000000#32 + _) + _) + _) + _) * Ideal.ofBits .f32 0x42000000#32 = _
  rw [Ideal.ofBits_zero_f32, zero_add]
  rfl

/-- The reference's result array is `Banded.embedOut` of its arguments. -/
theorem result_eq : val_main_v78 (F := Ideal) x0 x1 x2 x3 x4 x5 x6 x7 x8 = Cert.Banded.embedOut x0 x1 x2 x3 x4 x5 x6 x7 x8 := by
  funext i
  obtain ⟨b, s, d, rfl⟩ : ∃ (b : Fin 8) (s : Fin 2048) (d : Fin 1024), i = ix3 b s d := ⟨i 0, i 1, i 2, eq_ix3 i⟩
  exact result_apply x0 x1 x2 x3 x4 x5 x6 x7 x8 b s d

end Cert.ReferenceIdeal.BandValue

end
-- ==== Proof.LibMatmul.lean ====
/-
  A rows-by-columns product read at an entry (a general lemma: nothing here depends on a program).

  For the dimension numbers "contract the left operand's axis 1 with the right operand's axis 0, no batch axis" over
  operands [A, K] and [K, C], the contraction at entry (a, c), at the ideal values, is the sum over k < K of
  lhs[a, k] · rhs[k, c]; so is a matrix-unit product into a zero accumulator, and so is the host's dot_general.
-/
import Idealize.ShloMosaic.Lib.ValueIdx
import Idealize.ShloMosaic.PureOps.Ideal.Laws

noncomputable section

namespace Cert.Lib.Matmul

open Idealize.ShloMosaic Idealize.ShloMosaic.ValueIdx

variable {A K C : Nat}

/-- The left operand's index keeps the result's row. -/
theorem lhs0 (j : (⟨2, ![A, C]⟩ : Shape).Idx) (q : (DotDims.plain A K C).contr.Idx) :
    ((DotDims.plain A K C).lhsIdx j q 0).val = (j 0).val := by
  unfold DotDims.lhsIdx
  rw [dif_neg (show ¬(0 : Fin 2) ∈ (DotDims.plain A K C).lhsBatch from List.not_mem_nil),
    dif_pos (show (0 : Fin 2) ∈ (DotDims.plain A K C).lhsNonContracting from List.mem_singleton.mpr rfl)]
  rfl

/-- The left operand's column is the contraction coordinate. -/
theorem lhs1 (j : (⟨2, ![A, C]⟩ : Shape).Idx) (q : (DotDims.plain A K C).contr.Idx) :
    ((DotDims.plain A K C).lhsIdx j q 1).val = (q ⟨0, Nat.one_pos⟩).val :=
  (DotDims.plain A K C).lhsIdx_val_of_single rfl j q

/-- The right operand's row is the contraction coordinate. -/
theorem rhs0 (j : (⟨2, ![A, C]⟩ : Shape).Idx) (q : (DotDims.plain A K C).contr.Idx) :
    ((DotDims.plain A K C).rhsIdx j q 0).val = (q ⟨0, Nat.one_pos⟩).val :=
  (DotDims.plain A K C).rhsIdx_val_of_single rfl j q

/-- The right operand's index keeps the result's column. -/
theorem rhs1 (j : (⟨2, ![A, C]⟩ : Shape).Idx) (q : (DotDims.plain A K C).contr.Idx) :
    ((DotDims.plain A K C).rhsIdx j q 1).val = (j 1).val := by
  unfold DotDims.rhsIdx
  rw [dif_neg (show ¬(1 : Fin 2) ∈ (DotDims.plain A K C).rhsBatch from List.not_mem_nil),
    dif_pos (show (1 : Fin 2) ∈ (DotDims.plain A K C).rhsNonContracting from List.mem_singleton.mpr rfl)]
  rfl

/-- The contraction at entry (a, c) is the sum over the K products lhs[a, k] · rhs[k, c]. -/
theorem contr_sum (lhs : (⟨2, ![A, K]⟩ : Shape).Idx → EReal) (rhs : (⟨2, ![K, C]⟩ : Shape).Idx → EReal)
    (a : Fin A) (c : Fin C) :
    ∑ q : (DotDims.plain A K C).contr.Idx,
        lhs ((DotDims.plain A K C).lhsIdx (ix2 a c) q) * rhs ((DotDims.plain A K C).rhsIdx (ix2 a c) q)
      = ∑ k : Fin K, lhs (ix2 a k) * rhs (ix2 k c) := by
  rw [← Equiv.sum_comp (contrEquiv1 (DotDims.plain A K C) K rfl rfl).symm]
  refine Finset.sum_congr rfl fun k _ => ?_
  have hk := contrEquiv1_symm_val (DotDims.plain A K C) K rfl rfl k
  have el : (DotDims.plain A K C).lhsIdx (ix2 a c) ((contrEquiv1 (DotDims.plain A K C) K rfl rfl).symm k)
      = ix2 a k := funext fun x => Fin.ext (by
    match x with
    | ⟨0, _⟩ => exact lhs0 _ _
    | ⟨1, _⟩ => exact (lhs1 _ _).trans hk)
  have er : (DotDims.plain A K C).rhsIdx (ix2 a c) ((contrEquiv1 (DotDims.plain A K C) K rfl rfl).symm k)
      = ix2 k c := funext fun x => Fin.ext (by
    match x with
    | ⟨0, _⟩ => exact (rhs0 _ _).trans hk
    | ⟨1, _⟩ => exact rhs1 _ _)
  rw [el, er]

/-- A matrix-unit product into a zero accumulator, at entry (a, c). -/
theorem matmul_zero_apply {φ₁ φ₂ : FTy} (prec : Option ContractPrecision)
    (lhs : FVec Ideal ⟨2, ![A, K]⟩ φ₁) (rhs : FVec Ideal ⟨2, ![K, C]⟩ φ₂) (a : Fin A) (c : Fin C) :
    FloatOps.matmul (DotDims.plain A K C) prec lhs rhs (constant ⟨2, ![A, C]⟩ .f32 0x00000000#32) (ix2 a c)
      = ∑ k : Fin K, (lhs (ix2 a k) : EReal) * (rhs (ix2 k c) : EReal) := by
  rw [Ideal.matmul_constant_zero_apply]
  exact contr_sum lhs rhs a c

/-- The host's dot_general, at entry (a, c). -/
theorem dotGeneral_apply {φ₁ φ₂ : FTy} (prec : Option ContractPrecision) (sched : HostSchedule)
    (lhs : FVec Ideal ⟨2, ![A, K]⟩ φ₁) (rhs : FVec Ideal ⟨2, ![K, C]⟩ φ₂) (a : Fin A) (c : Fin C) :
    FloatOps.dotGeneral (DotDims.plain A K C) prec sched lhs rhs (ix2 a c)
      = ∑ k : Fin K, (lhs (ix2 a k) : EReal) * (rhs (ix2 k c) : EReal) := by
  rw [Ideal.dotGeneral_apply]
  exact contr_sum lhs rhs a c

end Cert.Lib.Matmul

end
-- ==== Proof.KernelBlock.lean ====
/-
  What one grid point's body stores, entry by entry.

  The body loads a block of 1024 token rows of each of the four masked embedding arrays (widths 1024, 256, 64, 16) and
  the four transposed projections (each with 1024 columns), forms the four matrix products into zero accumulators, adds
  them left to right and multiplies by the scale. At the ideal values a matrix product into a zero accumulator is, at
  entry (p, q), the sum over the contracted index k of left[p, k] * right[k, q]; so the stored block's entry (p, q) is
  the sum of the four such inner products, times the scale (`stored_apply`).
-/
import proofs.«172120_j19877108646485_1_alg».proof.Proof.Gen.KernelIdeal.Skeleton
import proofs.«172120_j19877108646485_1_alg».proof.Proof.BandedLookup
import proofs.«172120_j19877108646485_1_alg».proof.Proof.LibMatmul
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx

/-- The sum of four inner products over widths 1024, 256, 64 and 16, times the scale: row `p` of each left factor
    against column `q` of its right factor. -/
def combine (x0 : S1024x1024.Idx → EReal) (y0 : S1024x1024.Idx → EReal) (x1 : S1024x256.Idx → EReal) (y1 : S256x1024.Idx → EReal)
    (x2 : S1024x64.Idx → EReal) (y2 : S64x1024.Idx → EReal) (x3 : S1024x16.Idx → EReal) (y3 : S16x1024.Idx → EReal)
    (p q : Fin 1024) : EReal :=
  ((((∑ k : Fin 1024, x0 (ix2 p k) * y0 (ix2 k q)) + (∑ k : Fin 256, x1 (ix2 p k) * y1 (ix2 k q)))
      + (∑ k : Fin 64, x2 (ix2 p k) * y2 (ix2 k q))) + (∑ k : Fin 16, x3 (ix2 p k) * y3 (ix2 k q))) * Cert.Banded.scale

/-- The product of the width-1024 factors into a zero accumulator, at an entry. -/
theorem product0 (x : FVec Ideal S1024x1024 .bf16) (y : FVec Ideal S1024x1024 .bf16) (p q : Fin 1024) :
    matmul (F := Ideal) dot_S1024x1024_S1024x1024_S1024x1024_1_0_0_1_n_n none (shapeCast S1024x1024 x shapeCasts_S1024x1024_S1024x1024)
        (shapeCast S1024x1024 y shapeCasts_S1024x1024_S1024x1024) (constant (F := Ideal) S1024x1024 .f32 0x00000000#32) (ix2 p q)
      = ∑ k : Fin 1024, (x (ix2 p k) : EReal) * (y (ix2 k q) : EReal) := by
  rw [shapeCast_self, shapeCast_self]
  exact Cert.Lib.Matmul.matmul_zero_apply (A := 1024) (K := 1024) (C := 1024) none x y p q

/-- The product of the width-256 factors into a zero accumulator, at an entry. -/
theorem product1 (x : FVec Ideal S1024x256 .bf16) (y : FVec Ideal S256x1024 .bf16) (p q : Fin 1024) :
    matmul (F := Ideal) dot_S1024x256_S256x1024_S1024x1024_1_0_0_1_n_n none (shapeCast S1024x256 x shapeCasts_S1024x256_S1024x256)
        (shapeCast S256x1024 y shapeCasts_S256x1024_S256x1024) (constant (F := Ideal) S1024x1024 .f32 0x00000000#32) (ix2 p q)
      = ∑ k : Fin 256, (x (ix2 p k) : EReal) * (y (ix2 k q) : EReal) := by
  rw [shapeCast_self, shapeCast_self]
  exact Cert.Lib.Matmul.matmul_zero_apply (A := 1024) (K := 256) (C := 1024) none x y p q

/-- The product of the width-64 factors into a zero accumulator, at an entry. -/
theorem product2 (x : FVec Ideal S1024x64 .bf16) (y : FVec Ideal S64x1024 .bf16) (p q : Fin 1024) :
    matmul (F := Ideal) dot_S1024x64_S64x1024_S1024x1024_1_0_0_1_n_n none (shapeCast S1024x64 x shapeCasts_S1024x64_S1024x64)
        (shapeCast S64x1024 y shapeCasts_S64x1024_S64x1024) (constant (F := Ideal) S1024x1024 .f32 0x00000000#32) (ix2 p q)
      = ∑ k : Fin 64, (x (ix2 p k) : EReal) * (y (ix2 k q) : EReal) := by
  rw [shapeCast_self, shapeCast_self]
  exact Cert.Lib.Matmul.matmul_zero_apply (A := 1024) (K := 64) (C := 1024) none x y p q

/-- The product of the width-16 factors into a zero accumulator, at an entry. -/
theorem product3 (x : FVec Ideal S1024x16 .bf16) (y : FVec Ideal S16x1024 .bf16) (p q : Fin 1024) :
    matmul (F := Ideal) dot_S1024x16_S16x1024_S1024x1024_1_0_0_1_n_n none (shapeCast S1024x16 x shapeCasts_S1024x16_S1024x16)
        (shapeCast S16x1024 y shapeCasts_S16x1024_S16x1024) (constant (F := Ideal) S1024x1024 .f32 0x00000000#32) (ix2 p q)
      = ∑ k : Fin 16, (x (ix2 p k) : EReal) * (y (ix2 k q) : EReal) := by
  rw [shapeCast_self, shapeCast_self]
  exact Cert.Lib.Matmul.matmul_zero_apply (A := 1024) (K := 16) (C := 1024) none x y p q

/-- THE STORED BLOCK AT AN ENTRY: the four products summed left to right, times the scale. -/
theorem stored_apply (x0 : Vec Ideal S1024x1024 .bf16) (y0 : Vec Ideal S1024x1024 .bf16) (x1 : Vec Ideal S1024x256 .bf16)
    (y1 : Vec Ideal S256x1024 .bf16) (x2 : Vec Ideal S1024x64 .bf16) (y2 : Vec Ideal S64x1024 .bf16)
    (x3 : Vec Ideal S1024x16 .bf16) (y3 : Vec Ideal S16x1024 .bf16) (p q : Fin 1024) :
    k0_pay1 (F := Ideal) x0 y0 x1 y1 x2 y2 x3 y3 (ix2 p q) = combine x0 y0 x1 y1 x2 y2 x3 y3 p q := by
  unfold k0_pay1 combine
  show (((_ + _) + _) + _) * _ = _
  rw [product0, product1, product2, product3]
  rfl

end Cert.KernelIdeal.Block

end
-- ==== Proof.KernelIndex.lean ====
/-
  The kernel's index arithmetic on the flattened token ids.

  The program first lays its [8, 2048] array of token ids out as one vector of 16384 words (row-major: token (b, s) is
  word 2048 b + s), and then computes, for each of the four vocabulary bands, three vectors over the tokens: the band's
  membership bit, the offset into the band clipped into the band's table, and the start index handed to the gather.
  Every one of these is computed word by word, so its entry at a token is the scalar function of that token's id word
  (`Banded.inBand`, `Banded.offsetClipped`, `Banded.startWord`).
-/
import proofs.«172120_j19877108646485_1_alg».proof.Proof.Gen.KernelIdeal
import proofs.«172120_j19877108646485_1_alg».proof.Proof.BandedLookup
import Idealize.ShloMosaic.Lib.Pipeline.Value
import Idealize.ShloMosaic.Lib.ValueIdx

noncomputable section

namespace Cert.KernelIdeal.Operand

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The token ids as the program is given them. -/
abbrev ids (c : Dev nD) : S8x2048.Idx → BitVec 32 := m ((c : Thread nD τ).loc main_arg0)

/-- The token ids laid out as one vector of 16384 words. -/
def idsFlat (c : Dev nD) : IVec S16384 32 := shapeCast S16384 (ids m c) shapeCasts_S8x2048_S16384

/-- Word 2048 b + s of the flat vector is token (b, s)'s id. -/
theorem idsFlat_apply (c : Dev nD) (b : Fin 8) (s : Fin 2048) (n : Fin 16384) (hn : n.val = b.val * 2048 + s.val) :
    idsFlat m c (ix1 n) = ids m c (ix2 b s) := by
  unfold idsFlat
  refine shapeCast_apply _ _ _ _ ?_
  rw [Shape.rowMajor_val_two, Shape.rowMajor_val_one]
  show b.val * 2048 + s.val = n.val
  omega

/-- The band's membership bits over the tokens. -/
def bandVec (lo hi : BitVec 32) (v : IVec S16384 32) : IVec S16384 1 :=
  andi (cmpi .sge v (broadcastInDim S16384 ![] bcast_S_S16384 (constantI S_ 32 lo)))
    (cmpi .slt v (broadcastInDim S16384 ![] bcast_S_S16384 (constantI S_ 32 hi)))

theorem bandVec_apply (lo hi : BitVec 32) (v : IVec S16384 32) (j : S16384.Idx) :
    bandVec lo hi v j = Cert.Banded.inBand lo hi (v j) := rfl

/-- The offsets into the band, clipped into its table. -/
def clipVec (lo cl : BitVec 32) (v : IVec S16384 32) : IVec S16384 32 :=
  minsi (broadcastInDim S16384 ![] bcast_S_S16384 (id (constantI S_ 32 cl)))
    (maxsi (broadcastInDim S16384 ![] bcast_S_S16384 (id (constantI S_ 32 0#32)))
      (subi v (broadcastInDim S16384 ![] bcast_S_S16384 (constantI S_ 32 lo))))

theorem clipVec_apply (lo cl : BitVec 32) (v : IVec S16384 32) (j : S16384.Idx) :
    clipVec lo cl v j = Cert.Banded.offsetClipped lo cl (v j) := rfl

/-- The start indices handed to the gather. -/
def startVec (lo cl nn : BitVec 32) (v : IVec S16384 32) : IVec S16384 32 :=
  select (cmpi .slt (clipVec lo cl v) (broadcastInDim S16384 ![] bcast_S_S16384 (constantI S_ 32 0#32)))
    (addi (clipVec lo cl v) (broadcastInDim S16384 ![] bcast_S_S16384 (constantI S_ 32 nn))) (clipVec lo cl v)

theorem startVec_apply (lo cl nn : BitVec 32) (v : IVec S16384 32) (j : S16384.Idx) :
    startVec lo cl nn v j = Cert.Banded.startWord lo cl nn (v j) := rfl

end Cert.KernelIdeal.Operand

end
-- ==== Proof.LibRowGatherScatter.lean ====
/-
  A row gather followed by a row scatter-add, read at an entry (a general lemma: nothing here depends on a program).

  For an operand of shape [N, W], index arrays of shape [E, 1] and updates of shape [E, W], the row scatter-add
  (update window axis 1, inserted window axis 0, scatter axis 0, index vector axis 1) at entry (n, q) is x[n, q]
  plus the sum, over the edges e whose index dst[e], read signed, is n, of the update (e, q): an edge whose index
  is not a row contributes nothing. The row gather (offset axis 1, collapsed axis 0, start index map [0], index
  vector axis 1, slice sizes [1, W]) at (e, q) is the operand at row min(src[e], N - 1) (the index read signed and
  clamped), column q. Their composition therefore acts on every column by itself (`pass_apply`).
-/
import Idealize.ShloMosaic.Lib.ValueIdx
import Idealize.ShloMosaic.PureOps.Ideal.Laws

noncomputable section

namespace Cert.Lib.RowPass

open Idealize.ShloMosaic Idealize.ShloMosaic.ValueIdx

section Generic

/-- The row scatter's dimension numbers over an operand [N, W], indices [E, 1] and updates [E, W]. -/
abbrev scD (N E W : Nat) (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

variable {N E W w : Nat} (wf : ScatterDims.WF ⟨2, ![N, W]⟩ ⟨2, ![E, 1]⟩ ⟨2, ![E, W]⟩ [1] [0] [0] 1)

/-- On the row axis the window of update (e, q) starts at dst[e], read signed. -/
theorem sc_start0 (idx : IVec ⟨2, ![E, 1]⟩ w) (e : Fin E) (q : Fin W) :
    (scD N E W wf).start (ix2 e q) idx 0 = (idx (ix2 e 0)).toInt := by
  unfold ScatterDims.start
  rw [dif_pos (show (0 : Fin 2) ∈ (scD N E W wf).scatterDimsToOperandDims from List.mem_singleton.mpr rfl)]
  congr 2
  funext b
  match b with
  | ⟨0, _⟩ => rfl
  | ⟨1, _⟩ => rfl

/-- On the column axis every window starts at 0. -/
theorem sc_start1 (idx : IVec ⟨2, ![E, 1]⟩ w) (e : Fin E) (q : Fin W) :
    (scD N E W wf).start (ix2 e q) idx 1 = 0 := by
  unfold ScatterDims.start
  rw [dif_neg (show (1 : Fin 2) ∉ ([0] : List (Fin 2)) by decide)]

/-- The row axis is inserted: the window coordinate there is 0. -/
theorem sc_window0 (e : Fin E) (q : Fin W) : (scD N E W wf).window (ix2 e q) 0 = 0 := by
  unfold ScatterDims.window
  have h : (0 : Fin 2) ∉ (scD N E W wf).sKept :=
    (by decide : (0 : Fin 2) ∉ (List.finRange 2).filter (fun a => a ∉ ([0] : List (Fin 2))))
  rw [dif_neg h]

/-- On the column axis the window coordinate of update (e, q) is q. -/
theorem sc_window1 (e : Fin E) (q : Fin W) : (scD N E W wf).window (ix2 e q) 1 = q.val := by
  unfold ScatterDims.window
  have h : (1 : Fin 2) ∈ (scD N E W wf).sKept :=
    (by decide : (1 : Fin 2) ∈ (List.finRange 2).filter (fun a => a ∉ ([0] : List (Fin 2))))
  rw [dif_pos h]
  rfl

/-- An axis of a rank-2 shape is 0 or 1. -/
theorem fin2_cases (a : Fin 2) : a = 0 ∨ a = 1 := by
  revert a; decide

/-- Update (e, q) lands at (n, q') exactly when dst[e] = n and q = q' (an update whose dst[e] is not a row lands
    nowhere). -/
theorem sc_result_iff (idx : IVec ⟨2, ![E, 1]⟩ w) (e : Fin E) (q q' : Fin W) (n : Fin N) :
    (scD N E W wf).resultIdx? (ix2 e q) idx = some (ix2 n q')
      ↔ (idx (ix2 e 0)).toInt = (n.val : Int) ∧ q = q' := by
  have hq := q.isLt
  have hn := n.isLt
  unfold ScatterDims.resultIdx?
  split
  · rename_i h
    have h0 := h 0
    rw [sc_start0, sc_window0] at h0
    constructor
    · intro hs
      have hs' := Option.some.inj hs
      have e0 := congrArg (fun f => (f 0).val) hs'
      have e1 := congrArg (fun f => (f 1).val) hs'
      simp only [sc_start0, sc_start1, sc_window0, sc_window1] at e0 e1
      refine ⟨?_, Fin.ext ?_⟩
      · change _ = n.val at e0
        omega
      · change _ = q'.val at e1
        omega
    · rintro ⟨ht, rfl⟩
      congr 1
      funext a
      refine Fin.ext ?_
      rcases fin2_cases a with rfl | rfl
      · show ((scD N E W wf).start (ix2 e q) idx 0 + ((scD N E W wf).window (ix2 e q) 0 : Int)).toNat = n.val
        rw [sc_start0, sc_window0, ht]; omega
      · show ((scD N E W wf).start (ix2 e q) idx 1 + ((scD N E W wf).window (ix2 e q) 1 : Int)).toNat = q.val
        rw [sc_start1, sc_window1]; omega
  · rename_i h
    constructor
    · intro hs; exact absurd hs (by simp)
    · rintro ⟨ht, rfl⟩
      exfalso; apply h
      intro a
      rcases fin2_cases a with rfl | rfl
      · rw [sc_start0, sc_window0, ht]
        show (0 : Int) ≤ (n.val : Int) + ((0 : Nat) : Int) ∧ (n.val : Int) + ((0 : Nat) : Int) < (N : Int)
        omega
      · rw [sc_start1, sc_window1]
        show (0 : Int) ≤ 0 + (q.val : Int) ∧ 0 + (q.val : Int) < (W : Int)
        omega

/-- The scatter-add at entry (n, q): x[n, q] plus the sum over the edges e with dst[e] = n of the update (e, q). -/
theorem sc_apply (x : (⟨2, ![N, W]⟩ : Shape).Idx → EReal) (idx : IVec ⟨2, ![E, 1]⟩ w)
    (upd : (⟨2, ![E, W]⟩ : Shape).Idx → EReal) (n : Fin N) (q : Fin W) :
    Ideal.hostScatterAdd (scD N E W wf) x idx upd (ix2 n q)
      = x (ix2 n q) + ∑ e : Fin E, if (idx (ix2 e 0)).toInt = (n.val : Int) then upd (ix2 e q) else 0 := by
  show x (ix2 n q) + ∑ j ∈ Finset.univ.filter (fun j => (scD N E W wf).resultIdx? j idx = some (ix2 n q)), upd j = _
  congr 1
  rw [Finset.sum_filter, sum_idx2]
  refine Finset.sum_congr rfl fun e _ => ?_
  rw [Finset.sum_congr rfl fun q' _ => if_congr (sc_result_iff wf idx e q' q n) rfl rfl]
  by_cases ht : (idx (ix2 e 0)).toInt = (n.val : Int)
  · simp [ht]
  · simp [ht]

/-- The row gather's dimension numbers over an operand [N, W], start indices [E, 1] and a result [E, W]. -/
abbrev gaD (N E W : Nat) (wfg : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wfg

variable (wfg : GatherDims.WF ⟨2, ![N, W]⟩ ⟨2, ![E, 1]⟩ ⟨2, ![E, W]⟩ [1] [0] [] [0] [] 1 ![1, W])

/-- On the row axis the slice of result (e, q) starts at src[e], read signed and clamped into [0, N - 1]. -/
theorem ga_start0 (idx : IVec ⟨2, ![E, 1]⟩ w) (e : Fin E) (q : Fin W) :
    (gaD N E W wfg).start (ix2 e q) idx 0 = min (idx (ix2 e 0)).toInt.toNat (N - 1) := by
  unfold GatherDims.start
  rw [dif_pos (show (0 : Fin 2) ∈ (gaD N E W wfg).startIndexMap from List.mem_singleton.mpr rfl)]
  have hsi : (gaD N E W wfg).siIdx (ix2 e q) ⟨List.idxOf (0 : Fin 2) (gaD N E W wfg).startIndexMap,
      List.idxOf_lt_length_iff.2 (List.mem_singleton.mpr rfl)⟩ = ix2 e 0 := by
    funext b
    match b with
    | ⟨0, _⟩ => rfl
    | ⟨1, _⟩ => rfl
  rw [hsi]
  rfl

/-- On the column axis every slice starts at 0. -/
theorem ga_start1 (idx : IVec ⟨2, ![E, 1]⟩ w) (e : Fin E) (q : Fin W) :
    (gaD N E W wfg).start (ix2 e q) idx 1 = 0 := by
  unfold GatherDims.start
  rw [dif_neg (show (1 : Fin 2) ∉ ([0] : List (Fin 2)) by decide)]

/-- The row axis is collapsed: the offset coordinate there is 0. -/
theorem ga_off0 (e : Fin E) (q : Fin W) : (gaD N E W wfg).offCoord (ix2 e q) 0 = 0 := by
  unfold GatherDims.offCoord
  have h : (0 : Fin 2) ∉ (gaD N E W wfg).sKept :=
    (by decide : (0 : Fin 2) ∉ (List.finRange 2).filter (fun a => a ∉ ([0] ++ [] : List (Fin 2))))
  rw [dif_neg h]

/-- On the column axis the offset coordinate of result (e, q) is q. -/
theorem ga_off1 (e : Fin E) (q : Fin W) : (gaD N E W wfg).offCoord (ix2 e q) 1 = q.val := by
  unfold GatherDims.offCoord
  have h : (1 : Fin 2) ∈ (gaD N E W wfg).sKept :=
    (by decide : (1 : Fin 2) ∈ (List.finRange 2).filter (fun a => a ∉ ([0] ++ [] : List (Fin 2))))
  rw [dif_pos h]
  rfl

/-- The gather at (e, q): the operand at row min(src[e], N - 1), column q. -/
theorem ga_apply {α : Type} (hN : 0 < N) (H : (⟨2, ![N, W]⟩ : Shape).Idx → α) (idx : IVec ⟨2, ![E, 1]⟩ w)
    (e : Fin E) (q : Fin W) :
    Host.gather (gaD N E W wfg) H idx (ix2 e q)
      = H (ix2 ⟨min (idx (ix2 e 0)).toInt.toNat (N - 1), by omega⟩ q) := by
  unfold Host.gather
  congr 1
  funext a
  refine Fin.ext ?_
  rcases fin2_cases a with rfl | rfl
  · show (gaD N E W wfg).start (ix2 e q) idx 0 + (gaD N E W wfg).batchCoord (ix2 e q) 0
      + (gaD N E W wfg).offCoord (ix2 e q) 0 = min (idx (ix2 e 0)).toInt.toNat (N - 1)
    rw [ga_start0, ga_off0, GatherDims.batchCoord_eq_zero _ _ _ List.not_mem_nil, Nat.add_zero]
  · show (gaD N E W wfg).start (ix2 e q) idx 1 + (gaD N E W wfg).batchCoord (ix2 e q) 1
      + (gaD N E W wfg).offCoord (ix2 e q) 1 = q.val
    rw [ga_start1, ga_off1, GatherDims.batchCoord_eq_zero _ _ _ List.not_mem_nil]
    omega

/-- The gather-then-scatter-add at entry (n, q): x[n, q] plus the sum over the edges e whose target is n of H at the
    clamped source row of e, column q. -/
theorem pass_apply (hN : 0 < N) (H x : (⟨2, ![N, W]⟩ : Shape).Idx → EReal) (idxd idxs : IVec ⟨2, ![E, 1]⟩ w)
    (n : Fin N) (q : Fin W) :
    Ideal.hostScatterAdd (scD N E W wf) x idxd (Host.gather (gaD N E W wfg) H idxs) (ix2 n q)
      = x (ix2 n q) + ∑ e : Fin E, if (idxd (ix2 e 0)).toInt = (n.val : Int)
          then H (ix2 ⟨min (idxs (ix2 e 0)).toInt.toNat (N - 1), by omega⟩ q) else 0 := by
  rw [sc_apply]
  congr 1
  refine Finset.sum_congr rfl fun e _ => ?_
  rw [ga_apply wfg hN]

end Generic

end Cert.Lib.RowPass

end
-- ==== Proof.LibMaskedRows.lean ====
/-
  Rows of a table picked by a vector of start indices and masked by a vector of bits, read at an entry (a general
  lemma: nothing here depends on a program).

  A vector [E] becomes a column [E, 1] by broadcast_in_dim with dims [0], and a column [E, 1] is spread over [E, W] by
  broadcast_in_dim with dims [0, 1]; read at an entry, the first is the vector at its row and the second the column at
  (row, 0). For a table [N, W], a bit vector [E] and a vector of start indices [E], the select of (the spread bits,
  the row gather of the table by the start-index column, any third array) at entry (e, q) is therefore: the table's
  row min(start[e] read signed with negatives at 0, N - 1) at column q if bit e is set, else the third array's entry.
  Any sizes E, N, W.
-/
import proofs.«172120_j19877108646485_1_alg».proof.Proof.LibRowGatherScatter
import Idealize.ShloMosaic.Lib.ValueIdx
import Idealize.ShloMosaic.Lib.Pipeline.Value
import Idealize.ShloMosaic.PureOps.Ideal.Laws

noncomputable section

namespace Cert.Lib.MaskedRows

open Idealize.ShloMosaic Idealize.ShloMosaic.ValueIdx

variable {E W : Nat} {α : Type}

/-- A vector [E] broadcast to a column [E, 1] (dims [0]), read at (e, z): the vector at e. -/
theorem col_apply (h : (⟨1, ![E]⟩ : Shape).BroadcastsInDim ⟨2, ![E, 1]⟩ (![0] : Fin 1 → Fin 2))
    (v : (⟨1, ![E]⟩ : Shape).Idx → α) (e : Fin E) (z : Fin 1) :
    broadcastInDim ⟨2, ![E, 1]⟩ (![0] : Fin 1 → Fin 2) h v (ix2 e z) = v (ix1 e) := by
  refine broadcastInDim_apply _ h v _ _ fun a => ?_
  match a with
  | ⟨0, _⟩ =>
    show e.val = if E = 1 then 0 else e.val
    split_ifs with hE
    · have := e.isLt; omega
    · rfl

/-- A column [E, 1] spread over [E, W] (dims [0, 1]), read at (e, q): the column at (e, 0). -/
theorem spread_apply (h : (⟨2, ![E, 1]⟩ : Shape).BroadcastsInDim ⟨2, ![E, W]⟩ (![0, 1] : Fin 2 → Fin 2))
    (u : (⟨2, ![E, 1]⟩ : Shape).Idx → α) (e : Fin E) (q : Fin W) :
    broadcastInDim ⟨2, ![E, W]⟩ (![0, 1] : Fin 2 → Fin 2) h u (ix2 e q) = u (ix2 e 0) := by
  refine broadcastInDim_apply _ h u _ _ fun a => ?_
  match a with
  | ⟨0, _⟩ =>
    show e.val = if E = 1 then 0 else e.val
    split_ifs with hE
    · have := e.isLt; omega
    · rfl
  | ⟨1, _⟩ =>
    show (0 : Nat) = if (1 : Nat) = 1 then 0 else q.val
    rw [if_pos rfl]

/-- THE MASKED ROWS AT AN ENTRY: bit e set → the table's row picked by start[e], at column q; else the third array. -/
theorem maskedRows_apply {N : Nat} (hN : 0 < N)
    (wfg : GatherDims.WF ⟨2, ![N, W]⟩ ⟨2, ![E, 1]⟩ ⟨2, ![E, W]⟩ [1] [0] [] [0] [] 1 ![1, W])
    (hcol : (⟨1, ![E]⟩ : Shape).BroadcastsInDim ⟨2, ![E, 1]⟩ (![0] : Fin 1 → Fin 2))
    (hspread : (⟨2, ![E, 1]⟩ : Shape).BroadcastsInDim ⟨2, ![E, W]⟩ (![0, 1] : Fin 2 → Fin 2))
    (mask : IVec ⟨1, ![E]⟩ 1) (start : IVec ⟨1, ![E]⟩ 32) (tab : (⟨2, ![N, W]⟩ : Shape).Idx → α)
    (other : (⟨2, ![E, W]⟩ : Shape).Idx → α) (e : Fin E) (q : Fin W) :
    select (broadcastInDim ⟨2, ![E, W]⟩ (![0, 1] : Fin 2 → Fin 2) hspread (broadcastInDim ⟨2, ![E, 1]⟩ (![0] : Fin 1 → Fin 2) hcol mask))
        (Host.gather (Cert.Lib.RowPass.gaD N E W wfg) tab (broadcastInDim ⟨2, ![E, 1]⟩ (![0] : Fin 1 → Fin 2) hcol start)) other (ix2 e q)
      = Scalar.select (mask (ix1 e)) (tab (ix2 ⟨min (start (ix1 e)).toInt.toNat (N - 1), by omega⟩ q)) (other (ix2 e q)) := by
  rw [select_apply, spread_apply, col_apply, Cert.Lib.RowPass.ga_apply wfg hN]
  have hs : broadcastInDim ⟨2, ![E, 1]⟩ (![0] : Fin 1 → Fin 2) hcol start (ix2 e 0) = start (ix1 e) := col_apply hcol start e 0
  simp only [hs]

end Cert.Lib.MaskedRows

end
-- ==== Proof.KernelOperand0.lean ====
/-
  Band 0 (ids 0 … 19999, table width 1024): the two arrays the kernel region is handed for it.

  The left factor is the [16384, 1024] array whose row n is the token's table row if the token is in the band and a row
  of zeros otherwise, narrowed to bf16 (the identity at the ideal values); the right factor is the band's [1024, 1024]
  projection transposed, narrowed likewise. Each is named here as the value the host operations before the region
  compute from the program's arguments, and then read at an entry.
-/
import proofs.«172120_j19877108646485_1_alg».proof.Proof.Gen.KernelIdeal.Frame
import proofs.«172120_j19877108646485_1_alg».proof.Proof.KernelIndex
import proofs.«172120_j19877108646485_1_alg».proof.Proof.LibMaskedRows
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.Operand

open Cert.KernelIdeal Cert.KernelIdeal.Gen Idealize.ShloMosaic Idealize.ShloMosaic.TcCoe Idealize.SL.Sem Idealize.ShloMosaic.StableHlo Idealize.ShloMosaic.ValueIdx

variable (m : (ℓ : Loc nD τ sig) → Buf (Elt Ideal) ℓ)

/-- Band 0's embedding table and projection, as the program is given them. -/
abbrev table0 (c : Dev nD) : S20000x1024.Idx → EReal := m ((c : Thread nD τ).loc main_arg1)
abbrev weight0 (c : Dev nD) : S1024x1024.Idx → EReal := m ((c : Thread nD τ).loc main_arg5)

/-- The masked rows of band 0, one per token. -/
def rows0 (c : Dev nD) : FVec Ideal S16384x1024 .bf16 :=
  truncf .bf16 (select
      (broadcastInDim S16384x1024 ![0, 1] bcast_S16384x1_S16384x1024_0_1
        (broadcastInDim S16384x1 ![0] bcast_S16384_S16384x1_0 (bandVec 0#32 20000#32 (idsFlat m c))))
      (Host.gather gather_S20000x1024_S16384x1_S16384x1024_1_0_n_n_0_1_11024 (table0 m c)
        (broadcastInDim S16384x1 ![0] bcast_S16384_S16384x1_0 (startVec 0#32 19999#32 20000#32 (idsFlat m c))))
      (broadcastInDim S16384x1024 ![] bcast_S_S16384x1024 (id (constant S_ .f32 0x00000000#32)))) bitsLt_bf16_f32

set_option maxRecDepth 8192 in
set_option maxHeartbeats 4000000 in
/-- The region's first window stages exactly that array. -/
theorem V_rows0 (c : Dev nD) : V m c main_v18 = rows0 m c := by
  dsimp only [Gen.V, Gen.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  simp only [TRef.ofBuf, TRef.toBuf, cast_eq]
  rfl

/-- Row n of the masked rows: the token's table row if its id is in the band, else zeros. -/
theorem rows0_apply (c : Dev nD) (n : Fin 16384) (k : Fin 1024) :
    rows0 m c (ix2 n k) = Scalar.select (Cert.Banded.inBand 0#32 20000#32 (idsFlat m c (ix1 n)))
      (table0 m c (ix2 (Cert.Banded.rowOf (N := 20000) (by decide) (Cert.Banded.startWord 0#32 19999#32 20000#32 (idsFlat m c (ix1 n)))) k)) 0 := by
  unfold rows0
  rw [truncf_apply]
  refine (Cert.Lib.MaskedRows.maskedRows_apply (E := 16384) (W := 1024) (N := 20000) (by decide)
    gather_S20000x1024_S16384x1_S16384x1024_1_0_n_n_0_1_11024.wf bcast_S16384_S16384x1_0 bcast_S16384x1_S16384x1024_0_1 _ _ _ _ n k).trans ?_
  show Scalar.select (Cert.Banded.inBand 0#32 20000#32 (idsFlat m c (ix1 n)))
      (table0 m c (ix2 (Cert.Banded.rowOf (N := 20000) (by decide) (Cert.Banded.startWord 0#32 19999#32 20000#32 (idsFlat m c (ix1 n)))) k))
      (Ideal.ofBits .f32 0x00000000#32) = _
  rw [Ideal.ofBits_zero_f32]

/-- Band 0's projection, transposed. -/
def weightT0 (c : Dev nD) : FVec Ideal S1024x1024 .bf16 :=
  truncf .bf16 (transpose S1024x1024 [1, 0] (weight0 m c) transposes_S1024x1024_S1024x1024_1_0) bitsLt_bf16_f32

set_option maxRecDepth 8192 in
set_option maxHeartbeats 4000000 in
/-- The region's fifth window stages exactly that array. -/
theorem V_weightT0 (c : Dev nD) : V m c main_v74 = weightT0 m c := by
  dsimp only [Gen.V, Gen.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

/-- Entry (k, d) of the transposed projection is the projection's entry (d, k). -/
theorem weightT0_apply (c : Dev nD) (k : Fin 1024) (d : Fin 1024) :
    weightT0 m c (ix2 k d) = weight0 m c (ix2 d k) := by
  unfold weightT0
  rw [truncf_apply]
  refine transpose_apply _ _ _ _ _ fun b => ?_
  match b with
  | ⟨0, _⟩ => rfl
  | ⟨1, _⟩ => rfl

end Cert.KernelIdeal.Operand

end
-- ==== Proof.KernelOperand1.lean ====
/-
  Band 1 (ids 20000 … 39999, table width 256): the two arrays the kernel region is handed for it.

  The left factor is the [16384, 256] array whose row n is the token's table row (offset by the band's lower edge) if
  the token is in the band and a row of zeros otherwise, narrowed to bf16 (the identity at the ideal values); the right
  factor is the band's [1024, 256] projection transposed to [256, 1024], narrowed likewise.
-/
import proofs.«172120_j19877108646485_1_alg».proof.Proof.Gen.KernelIdeal.Frame
import proofs.«172120_j19877108646485_1_alg».proof.Proof.KernelIndex
import proofs.«172120_j19877108646485_1_alg».proof.Proof.LibMaskedRows
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.Operand

open Cert.KernelIdeal Cert.KernelIdeal.Gen Idealize.ShloMosaic Idealize.ShloMosaic.TcCoe Idealize.SL.Sem Idealize.ShloMosaic.StableHlo Idealize.ShloMosaic.ValueIdx

variable (m : (ℓ : Loc nD τ sig) → Buf (Elt Ideal) ℓ)

/-- Band 1's embedding table and projection, as the program is given them. -/
abbrev table1 (c : Dev nD) : S20000x256.Idx → EReal := m ((c : Thread nD τ).loc main_arg2)
abbrev weight1 (c : Dev nD) : S1024x256.Idx → EReal := m ((c : Thread nD τ).loc main_arg6)

/-- The masked rows of band 1, one per token. -/
def rows1 (c : Dev nD) : FVec Ideal S16384x256 .bf16 :=
  truncf .bf16 (select
      (broadcastInDim S16384x256 ![0, 1] bcast_S16384x1_S16384x256_0_1
        (broadcastInDim S16384x1 ![0] bcast_S16384_S16384x1_0 (bandVec 20000#32 40000#32 (idsFlat m c))))
      (Host.gather gather_S20000x256_S16384x1_S16384x256_1_0_n_n_0_1_1256 (table1 m c)
        (broadcastInDim S16384x1 ![0] bcast_S16384_S16384x1_0 (startVec 20000#32 19999#32 20000#32 (idsFlat m c))))
      (broadcastInDim S16384x256 ![] bcast_S_S16384x256 (id (constant S_ .f32 0x00000000#32)))) bitsLt_bf16_f32

set_option maxRecDepth 8192 in
set_option maxHeartbeats 4000000 in
/-- The region's second window stages exactly that array. -/
theorem V_rows1 (c : Dev nD) : V m c main_v36 = rows1 m c := by
  dsimp only [Gen.V, Gen.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  simp only [TRef.ofBuf, TRef.toBuf, cast_eq]
  rfl

/-- Row n of the masked rows: the token's table row if its id is in the band, else zeros. -/
theorem rows1_apply (c : Dev nD) (n : Fin 16384) (k : Fin 256) :
    rows1 m c (ix2 n k) = Scalar.select (Cert.Banded.inBand 20000#32 40000#32 (idsFlat m c (ix1 n)))
      (table1 m c (ix2 (Cert.Banded.rowOf (N := 20000) (by decide) (Cert.Banded.startWord 20000#32 19999#32 20000#32 (idsFlat m c (ix1 n)))) k)) 0 := by
  unfold rows1
  rw [truncf_apply]
  refine (Cert.Lib.MaskedRows.maskedRows_apply (E := 16384) (W := 256) (N := 20000) (by decide)
    gather_S20000x256_S16384x1_S16384x256_1_0_n_n_0_1_1256.wf bcast_S16384_S16384x1_0 bcast_S16384x1_S16384x256_0_1 _ _ _ _ n k).trans ?_
  show Scalar.select (Cert.Banded.inBand 20000#32 40000#32 (idsFlat m c (ix1 n)))
      (table1 m c (ix2 (Cert.Banded.rowOf (N := 20000) (by decide) (Cert.Banded.startWord 20000#32 19999#32 20000#32 (idsFlat m c (ix1 n)))) k))
      (Ideal.ofBits .f32 0x00000000#32) = _
  rw [Ideal.ofBits_zero_f32]

/-- Band 1's projection, transposed. -/
def weightT1 (c : Dev nD) : FVec Ideal S256x1024 .bf16 :=
  truncf .bf16 (transpose S256x1024 [1, 0] (weight1 m c) transposes_S1024x256_S256x1024_1_0) bitsLt_bf16_f32

set_option maxRecDepth 8192 in
set_option maxHeartbeats 4000000 in
/-- The region's sixth window stages exactly that array. -/
theorem V_weightT1 (c : Dev nD) : V m c main_v76 = weightT1 m c := by
  dsimp only [Gen.V, Gen.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

/-- Entry (k, d) of the transposed projection is the projection's entry (d, k). -/
theorem weightT1_apply (c : Dev nD) (k : Fin 256) (d : Fin 1024) :
    weightT1 m c (ix2 k d) = weight1 m c (ix2 d k) := by
  unfold weightT1
  rw [truncf_apply]
  refine transpose_apply _ _ _ _ _ fun b => ?_
  match b with
  | ⟨0, _⟩ => rfl
  | ⟨1, _⟩ => rfl

end Cert.KernelIdeal.Operand

end
-- ==== Proof.KernelOperand2.lean ====
/-
  Band 2 (ids 40000 … 199999, table width 64): the two arrays the kernel region is handed for it.

  The left factor is the [16384, 64] array whose row n is the token's table row (offset by the band's lower edge) if
  the token is in the band and a row of zeros otherwise, narrowed to bf16 (the identity at the ideal values); the right
  factor is the band's [1024, 64] projection transposed to [64, 1024], narrowed likewise.
-/
import proofs.«172120_j19877108646485_1_alg».proof.Proof.Gen.KernelIdeal.Frame
import proofs.«172120_j19877108646485_1_alg».proof.Proof.KernelIndex
import proofs.«172120_j19877108646485_1_alg».proof.Proof.LibMaskedRows
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.Operand

open Cert.KernelIdeal Cert.KernelIdeal.Gen Idealize.ShloMosaic Idealize.ShloMosaic.TcCoe Idealize.SL.Sem Idealize.ShloMosaic.StableHlo Idealize.ShloMosaic.ValueIdx

variable (m : (ℓ : Loc nD τ sig) → Buf (Elt Ideal) ℓ)

/-- Band 2's embedding table and projection, as the program is given them. -/
abbrev table2 (c : Dev nD) : S160000x64.Idx → EReal := m ((c : Thread nD τ).loc main_arg3)
abbrev weight2 (c : Dev nD) : S1024x64.Idx → EReal := m ((c : Thread nD τ).loc main_arg7)

/-- The masked rows of band 2, one per token. -/
def rows2 (c : Dev nD) : FVec Ideal S16384x64 .bf16 :=
  truncf .bf16 (select
      (broadcastInDim S16384x64 ![0, 1] bcast_S16384x1_S16384x64_0_1
        (broadcastInDim S16384x1 ![0] bcast_S16384_S16384x1_0 (bandVec 40000#32 200000#32 (idsFlat m c))))
      (Host.gather gather_S160000x64_S16384x1_S16384x64_1_0_n_n_0_1_164 (table2 m c)
        (broadcastInDim S16384x1 ![0] bcast_S16384_S16384x1_0 (startVec 40000#32 159999#32 160000#32 (idsFlat m c))))
      (broadcastInDim S16384x64 ![] bcast_S_S16384x64 (id (constant S_ .f32 0x00000000#32)))) bitsLt_bf16_f32

set_option maxRecDepth 8192 in
set_option maxHeartbeats 4000000 in
/-- The region's third window stages exactly that array. -/
theorem V_rows2 (c : Dev nD) : V m c main_v54 = rows2 m c := by
  dsimp only [Gen.V, Gen.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  simp only [TRef.ofBuf, TRef.toBuf, cast_eq]
  rfl

/-- Row n of the masked rows: the token's table row if its id is in the band, else zeros. -/
theorem rows2_apply (c : Dev nD) (n : Fin 16384) (k : Fin 64) :
    rows2 m c (ix2 n k) = Scalar.select (Cert.Banded.inBand 40000#32 200000#32 (idsFlat m c (ix1 n)))
      (table2 m c (ix2 (Cert.Banded.rowOf (N := 160000) (by decide) (Cert.Banded.startWord 40000#32 159999#32 160000#32 (idsFlat m c (ix1 n)))) k)) 0 := by
  unfold rows2
  rw [truncf_apply]
  refine (Cert.Lib.MaskedRows.maskedRows_apply (E := 16384) (W := 64) (N := 160000) (by decide)
    gather_S160000x64_S16384x1_S16384x64_1_0_n_n_0_1_164.wf bcast_S16384_S16384x1_0 bcast_S16384x1_S16384x64_0_1 _ _ _ _ n k).trans ?_
  show Scalar.select (Cert.Banded.inBand 40000#32 200000#32 (idsFlat m c (ix1 n)))
      (table2 m c (ix2 (Cert.Banded.rowOf (N := 160000) (by decide) (Cert.Banded.startWord 40000#32 159999#32 160000#32 (idsFlat m c (ix1 n)))) k))
      (Ideal.ofBits .f32 0x00000000#32) = _
  rw [Ideal.ofBits_zero_f32]

/-- Band 2's projection, transposed. -/
def weightT2 (c : Dev nD) : FVec Ideal S64x1024 .bf16 :=
  truncf .bf16 (transpose S64x1024 [1, 0] (weight2 m c) transposes_S1024x64_S64x1024_1_0) bitsLt_bf16_f32

set_option maxRecDepth 8192 in
set_option maxHeartbeats 4000000 in
/-- The region's seventh window stages exactly that array. -/
theorem V_weightT2 (c : Dev nD) : V m c main_v78 = weightT2 m c := by
  dsimp only [Gen.V, Gen.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

/-- Entry (k, d) of the transposed projection is the projection's entry (d, k). -/
theorem weightT2_apply (c : Dev nD) (k : Fin 64) (d : Fin 1024) :
    weightT2 m c (ix2 k d) = weight2 m c (ix2 d k) := by
  unfold weightT2
  rw [truncf_apply]
  refine transpose_apply _ _ _ _ _ fun b => ?_
  match b with
  | ⟨0, _⟩ => rfl
  | ⟨1, _⟩ => rfl

end Cert.KernelIdeal.Operand

end
-- ==== Proof.KernelOperand3.lean ====
/-
  Band 3 (ids 200000 … 267734, table width 16): the two arrays the kernel region is handed for it.

  The left factor is the [16384, 16] array whose row n is the token's table row (offset by the band's lower edge) if
  the token is in the band and a row of zeros otherwise, narrowed to bf16 (the identity at the ideal values); the right
  factor is the band's [1024, 16] projection transposed to [16, 1024], narrowed likewise.
-/
import proofs.«172120_j19877108646485_1_alg».proof.Proof.Gen.KernelIdeal.Frame
import proofs.«172120_j19877108646485_1_alg».proof.Proof.KernelIndex
import proofs.«172120_j19877108646485_1_alg».proof.Proof.LibMaskedRows
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.Operand

open Cert.KernelIdeal Cert.KernelIdeal.Gen Idealize.ShloMosaic Idealize.ShloMosaic.TcCoe Idealize.SL.Sem Idealize.ShloMosaic.StableHlo Idealize.ShloMosaic.ValueIdx

variable (m : (ℓ : Loc nD τ sig) → Buf (Elt Ideal) ℓ)

/-- Band 3's embedding table and projection, as the program is given them. -/
abbrev table3 (c : Dev nD) : S67735x16.Idx → EReal := m ((c : Thread nD τ).loc main_arg4)
abbrev weight3 (c : Dev nD) : S1024x16.Idx → EReal := m ((c : Thread nD τ).loc main_arg8)

/-- The masked rows of band 3, one per token. -/
def rows3 (c : Dev nD) : FVec Ideal S16384x16 .bf16 :=
  truncf .bf16 (select
      (broadcastInDim S16384x16 ![0, 1] bcast_S16384x1_S16384x16_0_1
        (broadcastInDim S16384x1 ![0] bcast_S16384_S16384x1_0 (bandVec 200000#32 267735#32 (idsFlat m c))))
      (Host.gather gather_S67735x16_S16384x1_S16384x16_1_0_n_n_0_1_116 (table3 m c)
        (broadcastInDim S16384x1 ![0] bcast_S16384_S16384x1_0 (startVec 200000#32 67734#32 67735#32 (idsFlat m c))))
      (broadcastInDim S16384x16 ![] bcast_S_S16384x16 (id (constant S_ .f32 0x00000000#32)))) bitsLt_bf16_f32

set_option maxRecDepth 8192 in
set_option maxHeartbeats 4000000 in
/-- The region's fourth window stages exactly that array. -/
theorem V_rows3 (c : Dev nD) : V m c main_v72 = rows3 m c := by
  dsimp only [Gen.V, Gen.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  simp only [TRef.ofBuf, TRef.toBuf, cast_eq]
  rfl

/-- Row n of the masked rows: the token's table row if its id is in the band, else zeros. -/
theorem rows3_apply (c : Dev nD) (n : Fin 16384) (k : Fin 16) :
    rows3 m c (ix2 n k) = Scalar.select (Cert.Banded.inBand 200000#32 267735#32 (idsFlat m c (ix1 n)))
      (table3 m c (ix2 (Cert.Banded.rowOf (N := 67735) (by decide) (Cert.Banded.startWord 200000#32 67734#32 67735#32 (idsFlat m c (ix1 n)))) k)) 0 := by
  unfold rows3
  rw [truncf_apply]
  refine (Cert.Lib.MaskedRows.maskedRows_apply (E := 16384) (W := 16) (N := 67735) (by decide)
    gather_S67735x16_S16384x1_S16384x16_1_0_n_n_0_1_116.wf bcast_S16384_S16384x1_0 bcast_S16384x1_S16384x16_0_1 _ _ _ _ n k).trans ?_
  show Scalar.select (Cert.Banded.inBand 200000#32 267735#32 (idsFlat m c (ix1 n)))
      (table3 m c (ix2 (Cert.Banded.rowOf (N := 67735) (by decide) (Cert.Banded.startWord 200000#32 67734#32 67735#32 (idsFlat m c (ix1 n)))) k))
      (Ideal.ofBits .f32 0x00000000#32) = _
  rw [Ideal.ofBits_zero_f32]

/-- Band 3's projection, transposed. -/
def weightT3 (c : Dev nD) : FVec Ideal S16x1024 .bf16 :=
  truncf .bf16 (transpose S16x1024 [1, 0] (weight3 m c) transposes_S1024x16_S16x1024_1_0) bitsLt_bf16_f32

set_option maxRecDepth 8192 in
set_option maxHeartbeats 4000000 in
/-- The region's eighth window stages exactly that array. -/
theorem V_weightT3 (c : Dev nD) : V m c main_v80 = weightT3 m c := by
  dsimp only [Gen.V, Gen.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

/-- Entry (k, d) of the transposed projection is the projection's entry (d, k). -/
theorem weightT3_apply (c : Dev nD) (k : Fin 16) (d : Fin 1024) :
    weightT3 m c (ix2 k d) = weight3 m c (ix2 d k) := by
  unfold weightT3
  rw [truncf_apply]
  refine transpose_apply _ _ _ _ _ fun b => ?_
  match b with
  | ⟨0, _⟩ => rfl
  | ⟨1, _⟩ => rfl

end Cert.KernelIdeal.Operand

end
-- ==== Proof.KernelArray.lean ====
/-
  From one grid point's block to the whole product array.

  The region runs 16 points; point t is handed rows 1024 t … 1024 t + 1023 of each of the four masked-row arrays and
  the whole of each transposed projection, and writes back rows 1024 t … 1024 t + 1023 of the [16384, 1024] result. So
  entry (p, k) of a left block at point t is entry (1024 t + p, k) of its array, a right block is its array, and what
  point t writes back is the same rows of ONE array, `product`: row n, column d holds the four inner products of row n of
  the masked rows with column d of the transposed projections, summed left to right, times the scale. The 16 blocks
  cover the result array (row n is in block n / 1024), so the array ends holding `product`.
-/
import proofs.«172120_j19877108646485_1_alg».proof.Proof.Gen.KernelIdeal.Frame
import proofs.«172120_j19877108646485_1_alg».proof.Proof.KernelBlock
import proofs.«172120_j19877108646485_1_alg».proof.Proof.KernelOperand0
import proofs.«172120_j19877108646485_1_alg».proof.Proof.KernelOperand1
import proofs.«172120_j19877108646485_1_alg».proof.Proof.KernelOperand2
import proofs.«172120_j19877108646485_1_alg».proof.Proof.KernelOperand3
import Idealize.ShloMosaic.Lib.Pipeline.Value
import Idealize.ShloMosaic.Lib.ValueIdx

noncomputable section

namespace Cert.KernelIdeal.ArrayValue

open Cert.KernelIdeal Cert.KernelIdeal.Gen Cert.KernelIdeal.Operand Idealize.ShloMosaic Idealize.ShloMosaic.TcCoe Idealize.SL.Sem Idealize.ShloMosaic.ValueIdx
open Idealize.ShloMosaic.Pipeline (Dat Cfg Window)

variable (m : (ℓ : Loc nD τ sig) → Buf (Elt Ideal) ℓ)

theorem hz : (![0, 0] : Fin 2 → Nat) = fun _ => 0 := funext fun a => by fin_cases a <;> rfl

/-- Row n, column d of the product array. -/
def productAt (c : Dev nD) (n : Fin 16384) (d : Fin 1024) : EReal :=
  ((((∑ k : Fin 1024, (rows0 m c (ix2 n k) : EReal) * (weightT0 m c (ix2 k d) : EReal))
      + (∑ k : Fin 256, (rows1 m c (ix2 n k) : EReal) * (weightT1 m c (ix2 k d) : EReal)))
      + (∑ k : Fin 64, (rows2 m c (ix2 n k) : EReal) * (weightT2 m c (ix2 k d) : EReal)))
      + (∑ k : Fin 16, (rows3 m c (ix2 n k) : EReal) * (weightT3 m c (ix2 k d) : EReal))) * Cert.Banded.scale

/-- The product array. -/
def product (c : Dev nD) : S16384x1024.Idx → EReal := fun i => productAt m c (i 0) (i 1)

/-- The input blocks at a point, each at its literal shape. -/
abbrev blk0 (c : Dev nD) (t : Fin cfg0.N) : Vec Ideal S1024x1024 .bf16 := iblk m c 0 t
abbrev blk1 (c : Dev nD) (t : Fin cfg0.N) : Vec Ideal S1024x256 .bf16 := iblk m c 1 t
abbrev blk2 (c : Dev nD) (t : Fin cfg0.N) : Vec Ideal S1024x64 .bf16 := iblk m c 2 t
abbrev blk3 (c : Dev nD) (t : Fin cfg0.N) : Vec Ideal S1024x16 .bf16 := iblk m c 3 t
abbrev blk4 (c : Dev nD) (t : Fin cfg0.N) : Vec Ideal S1024x1024 .bf16 := iblk m c 4 t
abbrev blk5 (c : Dev nD) (t : Fin cfg0.N) : Vec Ideal S256x1024 .bf16 := iblk m c 5 t
abbrev blk6 (c : Dev nD) (t : Fin cfg0.N) : Vec Ideal S64x1024 .bf16 := iblk m c 6 t
abbrev blk7 (c : Dev nD) (t : Fin cfg0.N) : Vec Ideal S16x1024 .bf16 := iblk m c 7 t

/-- The printed index maps, decided over the 16 points: the four row windows and the result window are at block
    (t, 0), the four projection windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- A block of band 0's masked rows is rows 1024 t … of the array. -/
theorem blk0_apply (c : Dev nD) (t : Fin cfg0.N) (p : Fin 1024) (k : Fin 1024) (n : Fin 16384) (hn : n.val = t.val * 1024 + p.val) :
    blk0 m c t (ix2 p k) = rows0 m c (ix2 n k) := by
  show V m c main_v18 (((cfg0.win 0).blk t).view.emb (ix2 p k)) = _
  rw [V_rows0]
  refine congrArg (rows0 m c) (funext fun a => Fin.ext ?_)
  obtain ⟨e0, e1, -⟩ := idx_facts t
  match a with
  | ⟨0, _⟩ => show win0_0.index t (0 : Fin 2) * 1024 + 1 * p.val = n.val; omega
  | ⟨1, _⟩ => show win0_0.index t (1 : Fin 2) * 1024 + 1 * k.val = k.val; omega

/-- A block of band 1's masked rows is rows 1024 t … of the array. -/
theorem blk1_apply (c : Dev nD) (t : Fin cfg0.N) (p : Fin 1024) (k : Fin 256) (n : Fin 16384) (hn : n.val = t.val * 1024 + p.val) :
    blk1 m c t (ix2 p k) = rows1 m c (ix2 n k) := by
  show V m c main_v36 (((cfg0.win 1).blk t).view.emb (ix2 p k)) = _
  rw [V_rows1]
  refine congrArg (rows1 m c) (funext fun a => Fin.ext ?_)
  obtain ⟨-, -, e0, e1, -⟩ := idx_facts t
  match a with
  | ⟨0, _⟩ => show win0_1.index t (0 : Fin 2) * 1024 + 1 * p.val = n.val; omega
  | ⟨1, _⟩ => show win0_1.index t (1 : Fin 2) * 256 + 1 * k.val = k.val; omega

/-- A block of band 2's masked rows is rows 1024 t … of the array. -/
theorem blk2_apply (c : Dev nD) (t : Fin cfg0.N) (p : Fin 1024) (k : Fin 64) (n : Fin 16384) (hn : n.val = t.val * 1024 + p.val) :
    blk2 m c t (ix2 p k) = rows2 m c (ix2 n k) := by
  show V m c main_v54 (((cfg0.win 2).blk t).view.emb (ix2 p k)) = _
  rw [V_rows2]
  refine congrArg (rows2 m c) (funext fun a => Fin.ext ?_)
  obtain ⟨-, -, -, -, e0, e1, -⟩ := idx_facts t
  match a with
  | ⟨0, _⟩ => show win0_2.index t (0 : Fin 2) * 1024 + 1 * p.val = n.val; omega
  | ⟨1, _⟩ => show win0_2.index t (1 : Fin 2) * 64 + 1 * k.val = k.val; omega

/-- A block of band 3's masked rows is rows 1024 t … of the array. -/
theorem blk3_apply (c : Dev nD) (t : Fin cfg0.N) (p : Fin 1024) (k : Fin 16) (n : Fin 16384) (hn : n.val = t.val * 1024 + p.val) :
    blk3 m c t (ix2 p k) = rows3 m c (ix2 n k) := by
  show V m c main_v72 (((cfg0.win 3).blk t).view.emb (ix2 p k)) = _
  rw [V_rows3]
  refine congrArg (rows3 m c) (funext fun a => Fin.ext ?_)
  obtain ⟨-, -, -, -, -, -, e0, e1, -⟩ := idx_facts t
  match a with
  | ⟨0, _⟩ => show win0_3.index t (0 : Fin 2) * 1024 + 1 * p.val = n.val; omega
  | ⟨1, _⟩ => show win0_3.index t (1 : Fin 2) * 16 + 1 * k.val = k.val; omega

/-- Band 0's transposed projection is handed over whole at every point. -/
theorem blk4_apply (c : Dev nD) (t : Fin cfg0.N) (k : Fin 1024) (q : Fin 1024) :
    blk4 m c t (ix2 k q) = weightT0 m c (ix2 k q) := by
  show V m c main_v74 (((cfg0.win 4).blk t).view.emb (ix2 k q)) = _
  rw [V_weightT0]
  refine congrArg (weightT0 m c) (funext fun a => Fin.ext ?_)
  obtain ⟨-, -, -, -, -, -, -, -, e0, e1, -⟩ := idx_facts t
  match a with
  | ⟨0, _⟩ => show win0_4.index t (0 : Fin 2) * 1024 + 1 * k.val = k.val; omega
  | ⟨1, _⟩ => show win0_4.index t (1 : Fin 2) * 1024 + 1 * q.val = q.val; omega

/-- Band 1's transposed projection is handed over whole at every point. -/
theorem blk5_apply (c : Dev nD) (t : Fin cfg0.N) (k : Fin 256) (q : Fin 1024) :
    blk5 m c t (ix2 k q) = weightT1 m c (ix2 k q) := by
  show V m c main_v76 (((cfg0.win 5).blk t).view.emb (ix2 k q)) = _
  rw [V_weightT1]
  refine congrArg (weightT1 m c) (funext fun a => Fin.ext ?_)
  obtain ⟨-, -, -, -, -, -, -, -, -, -, e0, e1, -⟩ := idx_facts t
  match a with
  | ⟨0, _⟩ => show win0_5.index t (0 : Fin 2) * 256 + 1 * k.val = k.val; omega
  | ⟨1, _⟩ => show win0_5.index t (1 : Fin 2) * 1024 + 1 * q.val = q.val; omega

/-- Band 2's transposed projection is handed over whole at every point. -/
theorem blk6_apply (c : Dev nD) (t : Fin cfg0.N) (k : Fin 64) (q : Fin 1024) :
    blk6 m c t (ix2 k q) = weightT2 m c (ix2 k q) := by
  show V m c main_v78 (((cfg0.win 6).blk t).view.emb (ix2 k q)) = _
  rw [V_weightT2]
  refine congrArg (weightT2 m c) (funext fun a => Fin.ext ?_)
  obtain ⟨-, -, -, -, -, -, -, -, -, -, -, -, e0, e1, -⟩ := idx_facts t
  match a with
  | ⟨0, _⟩ => show win0_6.index t (0 : Fin 2) * 64 + 1 * k.val = k.val; omega
  | ⟨1, _⟩ => show win0_6.index t (1 : Fin 2) * 1024 + 1 * q.val = q.val; omega

/-- Band 3's transposed projection is handed over whole at every point. -/
theorem blk7_apply (c : Dev nD) (t : Fin cfg0.N) (k : Fin 16) (q : Fin 1024) :
    blk7 m c t (ix2 k q) = weightT3 m c (ix2 k q) := by
  show V m c main_v80 (((cfg0.win 7).blk t).view.emb (ix2 k q)) = _
  rw [V_weightT3]
  refine congrArg (weightT3 m c) (funext fun a => Fin.ext ?_)
  obtain ⟨-, -, -, -, -, -, -, -, -, -, -, -, -, -, e0, e1, -⟩ := idx_facts t
  match a with
  | ⟨0, _⟩ => show win0_7.index t (0 : Fin 2) * 16 + 1 * k.val = k.val; omega
  | ⟨1, _⟩ => show win0_7.index t (1 : Fin 2) * 1024 + 1 * q.val = q.val; omega

/-- WHAT POINT t WRITES BACK is rows 1024 t … 1024 t + 1023 of `product`. -/
theorem flushed8_eq (c : Dev nD) (t : Fin cfg0.N) :
    (dats m 0 c).flushed 8 t = ((cfg0.win 8).blk t).view.read (Elt Ideal) (product m c) := by
  show (cfg0.win 8).cut (grid0.coords t) ((dats m 0 c).after 8 t) = _
  rw [after0_8]
  unfold out0_8
  rw [View.canon_unit_zero hz]
  simp only [View.ld_unit_zero (S := S1024x1024) hz, View.ld_unit_zero (S := S1024x256) hz, View.ld_unit_zero (S := S256x1024) hz,
    View.ld_unit_zero (S := S1024x64) hz, View.ld_unit_zero (S := S64x1024) hz, View.ld_unit_zero (S := S1024x16) hz,
    View.ld_unit_zero (S := S16x1024) hz]
  show (fun j : S1024x1024.Idx => k0_pay1 (F := Ideal) (blk0 m c t) (blk4 m c t) (blk1 m c t) (blk5 m c t) (blk2 m c t) (blk6 m c t)
      (blk3 m c t) (blk7 m c t) j) = fun j : S1024x1024.Idx => product m c (((cfg0.win 8).blk t).view.emb j)
  funext j
  obtain ⟨p, q, rfl⟩ : ∃ (p : Fin 1024) (q : Fin 1024), j = ix2 p q := ⟨j 0, j 1, eq_ix2 j⟩
  obtain ⟨-, -, -, -, -, -, -, -, -, -, -, -, -, -, -, -, e0, e1⟩ := idx_facts t
  have ht : t.val < 16 := by have h := t.isLt; have hN : cfg0.N = 16 := N_0; omega
  have hrow : ((cfg0.win 8).blk t).view.emb (ix2 p q) = ix2 (⟨t.val * 1024 + p.val, by have := p.isLt; omega⟩ : Fin 16384) q := by
    funext a; apply Fin.ext
    match a with
    | ⟨0, _⟩ => show win0_8.index t (0 : Fin 2) * 1024 + 1 * p.val = t.val * 1024 + p.val; omega
    | ⟨1, _⟩ => show win0_8.index t (1 : Fin 2) * 1024 + 1 * q.val = q.val; omega
  rw [hrow]
  refine (Cert.KernelIdeal.Block.stored_apply (blk0 m c t) (blk4 m c t) (blk1 m c t) (blk5 m c t) (blk2 m c t) (blk6 m c t)
    (blk3 m c t) (blk7 m c t) p q).trans ?_
  show _ = productAt m c (⟨t.val * 1024 + p.val, by have := p.isLt; omega⟩ : Fin 16384) q
  unfold Cert.KernelIdeal.Block.combine productAt
  have h0 : ∀ k, blk0 m c t (ix2 p k) = rows0 m c (ix2 (⟨t.val * 1024 + p.val, by have := p.isLt; omega⟩ : Fin 16384) k) :=
    fun k => blk0_apply m c t p k _ rfl
  have h1 : ∀ k, blk1 m c t (ix2 p k) = rows1 m c (ix2 (⟨t.val * 1024 + p.val, by have := p.isLt; omega⟩ : Fin 16384) k) :=
    fun k => blk1_apply m c t p k _ rfl
  have h2 : ∀ k, blk2 m c t (ix2 p k) = rows2 m c (ix2 (⟨t.val * 1024 + p.val, by have := p.isLt; omega⟩ : Fin 16384) k) :=
    fun k => blk2_apply m c t p k _ rfl
  have h3 : ∀ k, blk3 m c t (ix2 p k) = rows3 m c (ix2 (⟨t.val * 1024 + p.val, by have := p.isLt; omega⟩ : Fin 16384) k) :=
    fun k => blk3_apply m c t p k _ rfl
  simp only [h0, h1, h2, h3, blk4_apply, blk5_apply, blk6_apply, blk7_apply]

/-- An index of the result array is in point t's block iff each coordinate is in the block's range on its axis. -/
theorem mem_blk8 (t : Fin cfg0.N) (i : S16384x1024.Idx) :
    i ∈ ((cfg0.win 8).blk t).view.set ↔ ∀ a : Fin 2, win0_8.index t a * S1024x1024.size a ≤ (i a).val ∧ (i a).val < win0_8.index t a * S1024x1024.size a + S1024x1024.size a := by
  show i ∈ ((View.whole main_v81).slice (win0_8.rect t)).set ↔ _
  rw [View.set_slice_whole, Rect.mem_set_unit]
  exact Iff.rfl

/-- THE RESULT ARRAY after the region: `product` (row n lies in the block of point n / 1024). -/
theorem final8 (c : Dev nD) : (dats m 0 c).arrAt 8 cfg0.N = product m c :=
  (dats m 0 c).arrAt_eq_of_cover 8 (product m c) (fun t _ => flushed8_eq m c t) fun i => by
    have hi0 : (i 0).val < 16384 := (i 0).isLt
    have hi1 : (i 1).val < 1024 := (i 1).isLt
    have hN : cfg0.N = 16 := N_0
    refine ⟨⟨(i 0).val / 1024, by rw [hN]; omega⟩, flush0_8 _, ?_⟩
    rw [mem_blk8]
    obtain ⟨-, -, -, -, -, -, -, -, -, -, -, -, -, -, -, -, e0, e1⟩ := idx_facts ⟨(i 0).val / 1024, by rw [hN]; omega⟩
    intro a
    match a with
    | ⟨0, _⟩ =>
      show win0_8.index _ (0 : Fin 2) * 1024 ≤ (i 0).val ∧ (i 0).val < win0_8.index _ (0 : Fin 2) * 1024 + 1024
      rw [e0]; show (i 0).val / 1024 * 1024 ≤ (i 0).val ∧ (i 0).val < (i 0).val / 1024 * 1024 + 1024; omega
    | ⟨1, _⟩ =>
      show win0_8.index _ (1 : Fin 2) * 1024 ≤ (i 1).val ∧ (i 1).val < win0_8.index _ (1 : Fin 2) * 1024 + 1024
      rw [e1]; omega

end Cert.KernelIdeal.ArrayValue

end
-- ==== Proof.LibMergeRows.lean ====
/-
  Two leading axes merged into one, and one leading axis split into two, read at an entry (a general lemma: nothing
  here depends on a program).

  An array [A, B, C] and an array [A·B, C] hold the same entries in the same row-major order: entry (a, b, c) of the
  first sits where entry (a·B + b, c) of the second does. So a shape cast from one to the other, in either
  direction, moves no entry: it only renames (a, b) as the row a·B + b. Any sizes A, B, C; the merged extent is a
  parameter N with the row r given together with the equation r = a·B + b, so that a literal extent (16384 for
  16·1024) is met without arithmetic on types.
-/
import Idealize.ShloMosaic.Lib.ValueIdx
import Idealize.ShloMosaic.Lib.Pipeline.Value

noncomputable section

namespace Cert.Lib.MergeRows

open Idealize.ShloMosaic Idealize.ShloMosaic.ValueIdx

/-- [A, B, C] viewed as [N, C]: the entry at row a·B + b, column c, is the entry (a, b, c). -/
theorem merge_apply {α : Type} {A B C N : Nat} (x : (⟨3, ![A, B, C]⟩ : Shape).Idx → α)
    (h : (⟨3, ![A, B, C]⟩ : Shape).ShapeCasts ⟨2, ![N, C]⟩) (a : Fin A) (b : Fin B) (c : Fin C) (r : Fin N)
    (hr : r.val = a.val * B + b.val) :
    shapeCast ⟨2, ![N, C]⟩ x h (ix2 r c) = x (ix3 a b c) := by
  refine shapeCast_apply x h (ix2 r c) (ix3 a b c) ?_
  rw [Shape.rowMajor_val_three, Shape.rowMajor_val_two]
  show (a.val * B + b.val) * C + c.val = r.val * C + c.val
  rw [hr]

/-- [N, C] viewed as [A, B, C]: the entry (a, b, c) is the entry at row a·B + b, column c. -/
theorem split_apply {α : Type} {A B C N : Nat} (x : (⟨2, ![N, C]⟩ : Shape).Idx → α)
    (h : (⟨2, ![N, C]⟩ : Shape).ShapeCasts ⟨3, ![A, B, C]⟩) (a : Fin A) (b : Fin B) (c : Fin C) (r : Fin N)
    (hr : r.val = a.val * B + b.val) :
    shapeCast ⟨3, ![A, B, C]⟩ x h (ix3 a b c) = x (ix2 r c) := by
  refine shapeCast_apply x h (ix3 a b c) (ix2 r c) ?_
  rw [Shape.rowMajor_val_three, Shape.rowMajor_val_two]
  show r.val * C + c.val = (a.val * B + b.val) * C + c.val
  rw [hr]

end Cert.Lib.MergeRows

end
-- ==== Proof.KernelResult.lean ====
/-
  The kernel program's result and its run.

  After the region one host operation views the [16384, 1024] product array as [8, 2048, 1024]: entry (b, s, d) is the
  product's row 2048 b + s, column d. That row is token (b, s)'s: its masked table rows are selected by the token's id
  word, and each transposed projection's entry (k, d) is the projection's entry (d, k). So entry (b, s, d) is the sum
  of the four bands' terms with the mask applied to the table row, times the scale, which is `Banded.embedAt` by the
  law that lets the mask pass through the inner product.
-/
import proofs.«172120_j19877108646485_1_alg».proof.Proof.KernelArray
import proofs.«172120_j19877108646485_1_alg».proof.Proof.LibMergeRows
import Idealize.ShloMosaic.Lib.StableHlo.Run
import Idealize.ShloMosaic.Lib.Pipeline.Value
import Idealize.ShloMosaic.Lib.ValueIdx

noncomputable section

namespace Cert.KernelIdeal.ResultValue

open Cert.KernelIdeal Cert.KernelIdeal.Gen Cert.KernelIdeal.Operand Cert.KernelIdeal.ArrayValue Idealize.ShloMosaic Idealize.ShloMosaic.TcCoe
  Idealize.SL.Sem Idealize.ShloMosaic.StableHlo Idealize.ShloMosaic.ValueIdx
open Idealize.ShloMosaic.Pipeline (Dat Cfg Window)

variable (m : (ℓ : Loc nD τ sig) → Buf (Elt Ideal) ℓ) (ρ : Dev nD → PrngReg)

/-- The result buffer after the operation that follows the region: the product array viewed as [8, 2048, 1024]. -/
theorem tail_eq (c : Dev nD) :
    Pipeline.afterTail₀ cfgs (dats m) 0 (V0 m) [hostOps1] c main_v82
      = shapeCast S8x2048x1024 (product m c) shapeCasts_S16384x1024_S8x2048x1024 := by
  unfold Pipeline.afterTail₀
  show StableHlo.after hostOps1 _ (Proc.devRef .tc main_v82) = _
  after_results
  have hw := (Pipeline.withArrays_arr spec0 launch0.win.arr_inj c (V0 m c) (fun w => (dats m 0 c).arrAt w cfg0.N) 8).trans (final8 m c)
  exact congrArg (fun x : S16384x1024.Idx → EReal => shapeCast S8x2048x1024 x shapeCasts_S16384x1024_S8x2048x1024) hw

/-- THE RESULT AT (b, s, d): the product's row 2048 b + s, column d, which is `Banded.embedAt` of the arguments. -/
theorem result_apply (c : Dev nD) (b : Fin 8) (s : Fin 2048) (d : Fin 1024) :
    shapeCast S8x2048x1024 (product m c) shapeCasts_S16384x1024_S8x2048x1024 (ix3 b s d)
      = Cert.Banded.embedAt (ids m c) (table0 m c) (table1 m c) (table2 m c) (table3 m c) (weight0 m c) (weight1 m c)
          (weight2 m c) (weight3 m c) b s d := by
  have hb : b.val < 8 := b.isLt
  have hs : s.val < 2048 := s.isLt
  rw [Cert.Lib.MergeRows.split_apply (product m c) shapeCasts_S16384x1024_S8x2048x1024 b s d
    (⟨b.val * 2048 + s.val, by omega⟩ : Fin 16384) rfl]
  show productAt m c (⟨b.val * 2048 + s.val, by omega⟩ : Fin 16384) d = _
  rw [← Cert.Banded.embedAtMaskedRows_eq]
  have hflat : idsFlat m c (ix1 (⟨b.val * 2048 + s.val, by omega⟩ : Fin 16384)) = ids m c (ix2 b s) :=
    idsFlat_apply m c b s _ rfl
  unfold productAt Cert.Banded.embedAtMaskedRows Cert.Banded.bandTermMaskedRow
  simp only [rows0_apply, rows1_apply, rows2_apply, rows3_apply, weightT0_apply, weightT1_apply, weightT2_apply, weightT3_apply, hflat]

/-- The result array is `Banded.embedOut` of the arguments. -/
theorem result_eq (c : Dev nD) :
    shapeCast S8x2048x1024 (product m c) shapeCasts_S16384x1024_S8x2048x1024
      = Cert.Banded.embedOut (ids m c) (table0 m c) (table1 m c) (table2 m c) (table3 m c) (weight0 m c) (weight1 m c)
          (weight2 m c) (weight3 m c) := by
  funext i
  obtain ⟨b, s, d, rfl⟩ : ∃ (b : Fin 8) (s : Fin 2048) (d : Fin 1024), i = ix3 b s d := ⟨i 0, i 1, i 2, eq_ix3 i⟩
  exact result_apply m c b s d

/-- THE RUN, READ: every weakly fair execution ends with the result buffer at `Banded.embedOut` of the arguments and the
    arguments unchanged. -/
theorem run : θ_run defs (onTc (τ := τ) (main (F := Ideal))) ⟨m, fun _ => 0, ρ⟩ fun r => ∀ c : Dev nD,
      r.2.mem ((c.tc : Thread nD τ).loc main_v82)
        = Cert.Banded.embedOut (ids m c) (table0 m c) (table1 m c) (table2 m c) (table3 m c) (weight0 m c) (weight1 m c)
            (weight2 m c) (weight3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    ⟨((h c).2 main_v82 (Pipeline.mem_restRefs_of main_v82 (by decide) (by decide))).trans ((tail_eq m c).trans (result_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.ResultValue

end
-- ==== Proof.lean ====
/-
  An embedding looked up in four vocabulary bands and projected to a common width, against its reference.

  Token ids in [0, 20000), [20000, 40000), [40000, 200000) and [200000, 267735) read tables of widths 1024, 256, 64 and
  16; each band's table row is taken through the band's projection to width 1024; a token contributes only to its own
  band; the four contributions are added and the sum is multiplied by 32. The kernel program zeroes the table rows of
  the tokens outside a band BEFORE its matrix products (four products per block of 1024 tokens, over a grid of 16
  blocks); the reference zeroes the products afterwards. On the extended reals the two agree with nothing assumed of
  the inputs, because 0 * x = 0 for every extended real x: both results are `Banded.embedOut` of the arguments
  (Proof/BandedLookup.lean states it and the law; Proof/KernelResult.lean reads it off the kernel program's run,
  Proof/ReferenceValue.lean off the reference's).

  The three frame claims are the programs' runs with the result dropped; the ideal pass rewrote nothing, so the kernel
  program's idealization is its own text read at the ideal values and that claim is `True`.
-/
import proofs.«172120_j19877108646485_1_alg».proof.Defs
import proofs.«172120_j19877108646485_1_alg».proof.Proof.Gen.Kernel
import proofs.«172120_j19877108646485_1_alg».proof.Proof.Gen.Kernel.Frame
import proofs.«172120_j19877108646485_1_alg».proof.Proof.Gen.KernelIdeal
import proofs.«172120_j19877108646485_1_alg».proof.Proof.Gen.KernelIdeal.Frame
import proofs.«172120_j19877108646485_1_alg».proof.Proof.Gen.ReferenceIdeal
import proofs.«172120_j19877108646485_1_alg».proof.Proof.Gen.Pre_finite_inputs
import proofs.«172120_j19877108646485_1_alg».proof.Proof.ReferenceRun
import proofs.«172120_j19877108646485_1_alg».proof.Proof.ReferenceRead
import proofs.«172120_j19877108646485_1_alg».proof.Proof.ReferenceValue
import proofs.«172120_j19877108646485_1_alg».proof.Proof.KernelResult
import Idealize.ShloMosaic.Adequacy
import Idealize.ShloMosaic.Init

noncomputable section

namespace Cert.Proof

open Idealize.ShloMosaic Idealize.SL.Sem

/-- The kernel program as printed runs and keeps its arguments. -/
theorem frame_kernel : Cert.frame_Kernel := fun m ρ _ => Cert.Kernel.Gen.frame m ρ

/-- So does it read at the ideal values. -/
theorem frame_kernelIdeal : Cert.frame_KernelIdeal := fun m ρ _ => Cert.KernelIdeal.Gen.frame m ρ

/-- The reference's run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the arguments both programs end with the result at `Banded.embedOut` of the arguments. -/
theorem algebraic : Cert.algebraic_KernelIdeal_ReferenceIdeal := by
  intro m ρ m' ρ' _ hagree
  refine ⟨fun c => Cert.Banded.embedOut (Cert.KernelIdeal.Operand.ids m c) (Cert.KernelIdeal.Operand.table0 m c)
    (Cert.KernelIdeal.Operand.table1 m c) (Cert.KernelIdeal.Operand.table2 m c) (Cert.KernelIdeal.Operand.table3 m c)
    (Cert.KernelIdeal.Operand.weight0 m c) (Cert.KernelIdeal.Operand.weight1 m c) (Cert.KernelIdeal.Operand.weight2 m c)
    (Cert.KernelIdeal.Operand.weight3 m c), Cert.KernelIdeal.ResultValue.run m ρ, ?_⟩
  refine (θ_run Cert.ReferenceIdeal.defs _ _).mono (fun _ h c => ⟨(h c).1.trans ?_, (h c).2⟩)
    (Cert.ReferenceIdeal.ValueP.run (F := Ideal) m' ρ')
  have e := (Cert.ReferenceIdeal.ReadP.val_main_v78_eq (F := Ideal) m' c).trans
    (Cert.ReferenceIdeal.BandValue.result_eq _ _ _ _ _ _ _ _ _)
  obtain ⟨h0, h1, h2, h3, h4, h5, h6, h7, h8⟩ := hagree c
  rw [h0, h1, h2, h3, h4, h5, h6, h7, h8] at e
  exact e

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
